-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4096x1024 .f32) (main_arg1 : FVec F S4096x1024 .f32) (main_arg2 : FVec F S8192x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S4096x1024 : Shape := ⟨2, ![4096, 1024]⟩
abbrev S8192x1024 : Shape := ⟨2, ![8192, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩
abbrev S4x8x128 : Shape := ⟨3, ![4, 8, 128]⟩
abbrev S1024x1024 : Shape := ⟨2, ![1024, 1024]⟩
abbrev S1024x1 : Shape := ⟨2, ![1024, 1]⟩
abbrev S1x8x128 : Shape := ⟨3, ![1, 8, 128]⟩
abbrev S8x128 : Shape := ⟨2, ![8, 128]⟩
abbrev S1024 : Shape := ⟨1, ![1024]⟩
abbrev S1 : Shape := ⟨1, ![1]⟩
abbrev S1x1 : Shape := ⟨2, ![1, 1]⟩
abbrev S4x1x1 : Shape := ⟨3, ![4, 1, 1]⟩
abbrev S4 : Shape := ⟨1, ![4]⟩
abbrev S_ : Shape := ⟨0, ![]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S4096x1, .f32⟩
  | .hbm, ⟨5, _⟩ => ⟨S8192x1024, .bf16⟩
  | .hbm, ⟨6, _⟩ => ⟨S4x8x128, .f32⟩
  | .hbm, ⟨7, _⟩ => ⟨S4x1x1, .f32⟩
  | .hbm, ⟨8, _⟩ => ⟨S4, .f32⟩
  | .hbm, ⟨9, _⟩ => ⟨S_, .f32⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1, .f32⟩
  | .local _ .vmem, ⟨15, _⟩ => ⟨S1024x1, .f32⟩
  | .local _ .vmem, ⟨16, _⟩ => ⟨S1024x1024, .bf16⟩
  | .local _ .vmem, ⟨17, _⟩ => ⟨S1024x1024, .bf16⟩
  | .local _ .vmem, ⟨18, _⟩ => ⟨S1x8x128, .f32⟩
  | .local _ .vmem, ⟨19, _⟩ => ⟨S1x8x128, .f32⟩
  | .local _ .vmem, ⟨20, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .f32 = 32 ∨ (Rect.block (s := S4096x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8x128.size a ≤ S4x8x128.size a
  hwx2_3 : ∀ i : grid2.Coords, EltTy.bits .f32 = 32 ∨ (Rect.block (s := S4x8x128) S1x8x128.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x8x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S4096x8192 : Shape := ⟨2, ![4096, 8192]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8192x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x8192, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x8192, .f32⟩
  | .hbm, ⟨42, _⟩ => ⟨S4096x8192, .f32⟩
  | .hbm, ⟨43, _⟩ => ⟨S_, .f32⟩
  | .hbm, ⟨44, _⟩ => ⟨S4096x8192, .f32⟩
  | .hbm, ⟨45, _⟩ => ⟨S4096x8192, .f32⟩
  | .hbm, ⟨46, _⟩ => ⟨S_, .f32⟩
  | .hbm, ⟨47, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S4096x8192_S_d0_1 : S4096x8192.ReducesTo [0, 1] S_
  dot_S4096x1024_S8192x1024_S4096x8192_1_1_0_0_n_n_wf : DotDims.WF S4096x1024 S8192x1024 S4096x8192 [1] [1] [0] [0] [] []

variable [Facts₀]

def dot_S4096x1024_S8192x1024_S4096x8192_1_1_0_0_n_n : DotDims S4096x1024 S8192x1024 S4096x8192 where
  lhsContracting := [1]
  rhsContracting := [1]
  lhsNonContracting := [0]
  rhsNonContracting := [0]
  lhsBatch := []
  rhsBatch := []
  wf := dot_S4096x1024_S8192x1024_S4096x8192_1_1_0_0_n_n_wf

class Facts : Prop extends Facts₀ where

variable [Facts]
-- ==== Proof.K.Reg0.lean ====
/-
  The first kernel region: eight grid points, each normalising a block of 512 rows of the two
  row-major inputs. Per point the body reads the two input blocks whole, writes the first input's
  block divided row by row by the clamped Euclidean norm of the row (narrowed to sixteen bits), and
  writes the column of row-wise inner products of the two normalised blocks. Stated at an arbitrary
  valuation of the buffers at the region's entry: what each output block holds after the body as a
  function of the input blocks, the body's triple, the region's proof data and its obligation.
-/
import proofs.«175147_j18545668784711_1_alg».proof.Proof.Gen.Kernel.Launch
import proofs.«175147_j18545668784711_1_alg».proof.Proof.Gen.Kernel.Skeleton
import proofs.«175147_j18545668784711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over the entry arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The whole 512×1024 block, as a rectangle. -/
abbrev rb0 : Rect S512x1024 := Rect.unit (s := S512x1024) ![0, 0] S512x1024.size inb_S512x1024_S512x1024_0_0
/-- The whole 512×1 column, as a rectangle. -/
abbrev rc0 : Rect S512x1 := Rect.unit (s := S512x1) ![0, 0] S512x1.size inb_S512x1_S512x1_0_0

/-- The normalised block the body leaves in the third window's buffer. -/
def out0_2 (x0 : Vec F S512x1024 .f32) : Vec F S512x1024 .bf16 :=
  View.canon [⟨rb0, k0_pay3 (View.ld x0 rb0)⟩]

/-- The column of inner products the body leaves in the fourth window's buffer. -/
def out0_3 (x0 x1 : Vec F S512x1024 .f32) : Vec F S512x1 .f32 :=
  View.canon [⟨rc0, k0_pay2 (View.ld x0 rb0) (View.ld x1 rb0)⟩]

theorem cover0_2 (p0 : Vec F S512x1024 .bf16) (y : S512x1024.Idx) :
    ∃ pc ∈ ([⟨rb0, p0⟩] : List (View.Piece (Elt F) S512x1024 .bf16)), y ∈ pc.1.set :=
  View.cover_of_tiled [⟨rb0, p0⟩] S512x1024.size (by rfl) y

theorem cover0_3 (p0 : Vec F S512x1 .f32) (y : S512x1.Idx) :
    ∃ pc ∈ ([⟨rc0, p0⟩] : List (View.Piece (Elt F) S512x1 .f32)), y ∈ pc.1.set :=
  View.cover_of_tiled [⟨rc0, p0⟩] S512x1.size (by rfl) y

set_option maxHeartbeats 1000000 in
/-- The body on whole staging buffers: the inputs are kept, each output ends at its function of the inputs. -/
theorem sound_kernel0 (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .bf16) (harg3 : arg3.IsWhole) (arg4 : Memref sig .tc .vmem S512x1 .f32) (harg4 : arg4.IsWhole)
    (x0 x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__normalize_qk_kernel i arg1 harg1 arg2 harg2 arg3 harg3 arg4 harg4) K := by
  simp only [cc0__normalize_qk_kernel_eq_skeleton]; unfold cc0__normalize_qk_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

section
variable (V : (c : Dev nD) → (b : Ref sig .tc) → Buf (Elt F) ((c : Thread nD τ).loc b))

/-- The region's proof data on core `c`: the arrays as found; after the body each input buffer at its block and
    each output buffer at its function of the input blocks; the invariant the untouched scoped rest and the
    generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.K.Reg1.lean ====
/-
  The second kernel region: sixteen grid points, each normalising a block of 512 rows of the third
  input. Per point the body reads the block whole and writes it divided row by row by the clamped
  Euclidean norm of the row (narrowed to sixteen bits). Stated at an arbitrary valuation of the
  buffers at the region's entry.
-/
import proofs.«175147_j18545668784711_1_alg».proof.Proof.Gen.Kernel.Launch
import proofs.«175147_j18545668784711_1_alg».proof.Proof.Gen.Kernel.Skeleton
import proofs.«175147_j18545668784711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end

/-- The whole 512×1024 block, as a rectangle. -/
abbrev rb1 : Rect S512x1024 := Rect.unit (s := S512x1024) ![0, 0] S512x1024.size inb_S512x1024_S512x1024_0_0

/-- The normalised block the body leaves in the output window's buffer. -/
def out1_1 (x0 : Vec F S512x1024 .f32) : Vec F S512x1024 .bf16 :=
  View.canon [⟨rb1, k1_pay1 (View.ld x0 rb1)⟩]

theorem cover1_1 (p0 : Vec F S512x1024 .bf16) (y : S512x1024.Idx) :
    ∃ pc ∈ ([⟨rb1, p0⟩] : List (View.Piece (Elt F) S512x1024 .bf16)), y ∈ pc.1.set :=
  View.cover_of_tiled [⟨rb1, p0⟩] S512x1024.size (by rfl) y

set_option maxHeartbeats 1000000 in
/-- The body on whole staging buffers: the input is kept, the output ends at its function of the input. -/
theorem sound_kernel1 (c : Dev nD) (E : Set ℕ) (i : grid1.Coords)
    (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_queue_kernel i arg1 harg1 arg2 harg2) K := by
  simp only [cc1__normalize_queue_kernel_eq_skeleton]; unfold cc1__normalize_queue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

section
variable (V : (c : Dev nD) → (b : Ref sig .tc) → Buf (Elt F) ((c : Thread nD τ).loc b))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.Kernel.Frm

end
-- ==== Proof.K.Reg2.lean ====
/-
  The third kernel region: a 4 × 8 grid, the second axis innermost. At point (b, j) the body multiplies
  block b of the normalised first input (1024 rows) with the transpose of block j of the normalised third
  input (1024 rows), adds margin minus the block's column of cosines to every row, clamps at zero, sums the
  whole 1024 × 1024 tile to one number and adds it, replicated, to an 8 × 128 accumulator kept in scratch
  memory. The accumulator is zeroed at j = 0 and copied to row-tile b of the output at j = 7; at the other
  points the output window is idle. Stated at an arbitrary valuation of the buffers at the region's entry:
  the two branch conditions decided over the grid, the body's triple in each of the three cases, the
  accumulator after each point by recursion on the point, the region's proof data with the accumulator's
  contents carried in the invariant, and its obligation.
-/
import proofs.«175147_j18545668784711_1_alg».proof.Proof.Gen.Kernel.Launch
import proofs.«175147_j18545668784711_1_alg».proof.Proof.Gen.Kernel.Skeleton
import proofs.«175147_j18545668784711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- The accumulator is zeroed: the second grid coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The accumulator is copied out: the second grid coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

abbrev rs2 : Rect S8x128 := Rect.unit (s := S8x128) ![0, 0] S8x128.size inb_S8x128_S8x128_0_0
abbrev rq2 : Rect S1024x1024 := Rect.unit (s := S1024x1024) ![0, 0] S1024x1024.size inb_S1024x1024_S1024x1024_0_0
abbrev rp2 : Rect S1024x1 := Rect.unit (s := S1024x1) ![0, 0] S1024x1.size inb_S1024x1_S1024x1_0_0
abbrev ro2 : Rect S1x8x128 := Rect.unit (s := S1x8x128) ![0, 0, 0] S1x8x128.size inb_S1x8x128_S1x8x128_0_0_0

def zero2 : Vec F S8x128 .f32 := k2_pay1
def acc2 (x0 : Vec F S1024x1024 .bf16) (x1 : Vec F S1024x1 .f32) (x2 : Vec F S1024x1024 .bf16) (s : Vec F S8x128 .f32) : Vec F S8x128 .f32 :=
  k2_pay2 x0 x2 x1 s
def flush2 (s : Vec F S8x128 .f32) : Vec F S1x8x128 .f32 := k2_pay3 s

theorem hz2 : (![0, 0] : Fin 2 → ℕ) = fun _ => 0 := by funext a; fin_cases a <;> rfl
theorem hz3 : (![0, 0, 0] : Fin 3 → ℕ) = fun _ => 0 := by funext a; fin_cases a <;> rfl

theorem scover2 (p0 : Vec F S8x128 .f32) (y : S8x128.Idx) :
    ∃ pc ∈ ([⟨rs2, p0⟩] : List (View.Piece (Elt F) S8x128 .f32)), y ∈ pc.1.set :=
  View.cover_of_tiled [⟨rs2, p0⟩] S8x128.size (by rfl) y

set_option maxHeartbeats 1000000 in
theorem sound_kernel2_B (c : Dev nD) (E : Set ℕ) (i : grid2.Coords) (hc0 : ¬cond2_0 i) (hc1 : ¬cond2_1 i)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x8x128 .f32) (harg5 : arg5.IsWhole)
    (arg6 : Memref sig .tc .vmem S8x128 .f32) (harg6 : arg6.IsWhole)
    (x0 : Vec F S1024x1024 .bf16) (x1 : Vec F S1024x1 .f32) (x2 : Vec F S1024x1024 .bf16) (xi : Vec F S1x8x128 .f32) (s : Vec F S8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (acc2 x0 x1 x2 s)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (scover2 _)).trans ?_
  unfold acc2
  rw [View.canon_unit_zero (S := S8x128) hz2]
  simp only [View.readAt_eq_ld, View.ld_unit_zero (S := S1024x1024) hz2, View.ld_unit_zero (S := S1024x1) hz2, View.ld_unit_zero (S := S8x128) hz2]

set_option maxHeartbeats 1000000 in
theorem sound_kernel2_A (c : Dev nD) (E : Set ℕ) (i : grid2.Coords) (hc0 : cond2_0 i) (hc1 : ¬cond2_1 i)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x8x128 .f32) (harg5 : arg5.IsWhole)
    (arg6 : Memref sig .tc .vmem S8x128 .f32) (harg6 : arg6.IsWhole)
    (x0 : Vec F S1024x1024 .bf16) (x1 : Vec F S1024x1 .f32) (x2 : Vec F S1024x1024 .bf16) (xi : Vec F S1x8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (acc2 x0 x1 x2 zero2)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  refine (View.read_writes_eq_canon _ _ _ (fun y => ⟨_, List.mem_cons_self, View.mem_set_unit_zero hz2 inb_S8x128_S8x128_0_0 y⟩)).trans ?_
  unfold acc2 zero2
  rw [View.canon_cons_unit_zero (S := S8x128) hz2]
  simp only [View.readAt_eq_ld, View.ld_unit_zero (S := S1024x1024) hz2, View.ld_unit_zero (S := S1024x1) hz2, View.readCov_unit_zero (S := S8x128) _ hz2]

set_option maxHeartbeats 1000000 in
theorem sound_kernel2_C (c : Dev nD) (E : Set ℕ) (i : grid2.Coords) (hc0 : ¬cond2_0 i) (hc1 : cond2_1 i)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x8x128 .f32) (harg5 : arg5.IsWhole)
    (arg6 : Memref sig .tc .vmem S8x128 .f32) (harg6 : arg6.IsWhole)
    (x0 : Vec F S1024x1024 .bf16) (x1 : Vec F S1024x1 .f32) (x2 : Vec F S1024x1024 .bf16) (s : Vec F S8x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (flush2 (acc2 x0 x1 x2 s)) ∗ owns (c : Thread nD τ) arg6 fullShare (acc2 x0 x1 x2 s)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (fun y => ⟨_, List.mem_singleton_self _, View.mem_set_unit_zero hz3 inb_S1x8x128_S1x8x128_0_0_0 y⟩)).trans ?_
    unfold flush2 acc2
    rw [View.canon_unit_zero (S := S1x8x128) hz3]
    simp only [View.readAt_eq_ld, View.ld_unit_zero (S := S1024x1024) hz2, View.ld_unit_zero (S := S1024x1) hz2, View.ld_unit_zero (S := S8x128) hz2, View.readCov_unit_zero (S := S8x128) _ hz2]
  iexists _; isplitr
  swap; · iexact H4
  ipureintro
  refine (View.read_writes_eq_canon _ _ _ (scover2 _)).trans ?_
  unfold acc2
  rw [View.canon_unit_zero (S := S8x128) hz2]
  simp only [View.readAt_eq_ld, View.ld_unit_zero (S := S1024x1024) hz2, View.ld_unit_zero (S := S1024x1) hz2, View.ld_unit_zero (S := S8x128) hz2]

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the accumulator is not copied out the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- The scratch accumulator, a whole scoped buffer of the kernel's own. -/
abbrev scM2 : Memref sig .tc .vmem S8x128 .f32 := Memref.whole cc2_scratch0

/-- The class invariant with the accumulator's buffer split off the other scoped buffers. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole, bigSepL]
  try rfl

section
variable (V : (c : Dev nD) → (b : Ref sig .tc) → Buf (Elt F) ((c : Thread nD τ).loc b))

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- What the scratch accumulator holds after the body at position `n`: the tile's sum added to zero where the
    second coordinate is 0, to what the point before left elsewhere. -/
def sAt2 (c : Dev nD) : (n : ℕ) → n < cfg2.N → Vec F S8x128 .f32
  | 0, hn => acc2 (iblk2 V c 0 ⟨0, hn⟩) (iblk2 V c 1 ⟨0, hn⟩) (iblk2 V c 2 ⟨0, hn⟩) zero2
  | n + 1, hn =>
    if (n + 1) % 8 = 0 then acc2 (iblk2 V c 0 ⟨n + 1, hn⟩) (iblk2 V c 1 ⟨n + 1, hn⟩) (iblk2 V c 2 ⟨n + 1, hn⟩) zero2
    else acc2 (iblk2 V c 0 ⟨n + 1, hn⟩) (iblk2 V c 1 ⟨n + 1, hn⟩) (iblk2 V c 2 ⟨n + 1, hn⟩) (sAt2 c n (Nat.lt_of_succ_lt hn))

theorem sAt2_reset (c : Dev nD) (t : Fin cfg2.N) (h0 : t.val % 8 = 0) :
    sAt2 V c t.val t.isLt = acc2 (iblk2 V c 0 t) (iblk2 V c 1 t) (iblk2 V c 2 t) zero2 := by
  obtain ⟨n, hn⟩ := t
  cases n with
  | zero => rfl
  | succ n => exact if_pos h0

theorem sAt2_step (c : Dev nD) (t : Fin cfg2.N) (h0 : ¬t.val % 8 = 0) :
    sAt2 V c t.val t.isLt = acc2 (iblk2 V c 0 t) (iblk2 V c 1 t) (iblk2 V c 2 t)
      (sAt2 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: the class's before the first point; afterwards the accumulator at what
    the point before left, the other scoped buffers at anything and the generator register at some state. -/
def PhiS2 (c : Dev nD) : (n : ℕ) → n ≤ cfg2.N → sProp 𝕄
  | 0, _ => Pipeline.ΦA spec2 c
  | n + 1, hn => iprop((owns (c : Thread nD τ) scM2 fullShare (sAt2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (sAt2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop((owns (c : Thread nD τ) scM2 fullShare (sAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The region's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => flush2 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = flush2 (sAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [sAt2_reset V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond2_0 (grid2.coords t) := fun h => h0 ((hcond2_0 t).mp h)
    rw [sAt2_step V c t h0]
    rw [PhiS2_castSucc V c t, PhiS2_pos V c _ _ hz]
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, sAt2_step V c t h0]
      iintro ⟨⟨⟨HS, HR⟩, Hg⟩, Ho, ⟨%d0, H0⟩, ⟨%d1, H1⟩, ⟨%d2, H2⟩, ⟨%d3, H3⟩⟩
      iapply (sound_kernel2_C c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨⟨HS, HR⟩, Hg⟩, Ho, ⟨%d0, H0⟩, ⟨%d1, H1⟩, ⟨%d2, H2⟩, ⟨%d3, H3⟩⟩
      iapply (sound_kernel2_B c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitr [Hg]
  · isplitl [HS]; · iexists _; iexact HS
    iexact HR
  iexact Hg

end

end Cert.Kernel.Frm

end
-- ==== Proof.K.Run.lean ====
/-
  The whole program's run: three kernel regions, then four host operations (a slice of one entry per
  row-tile, a reshape, a zero constant, a sum of the four entries). The buffers' contents at each boundary
  are folded from the launch memory: a region leaves its arrays at what its write-backs make of them and
  every other buffer as it found it; the host operations leave their results. Every weakly fair execution
  terminates, nothing faulting, with every unscoped buffer at the last boundary's contents; no operation
  and no region writes an argument, so the arguments end as launched.
-/
import proofs.«175147_j18545668784711_1_alg».proof.Proof.Gen.Kernel.Launch
import proofs.«175147_j18545668784711_1_alg».proof.Proof.Gen.Kernel.Skeleton
import proofs.«175147_j18545668784711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«175147_j18545668784711_1_alg».proof.Proof.K.Reg0
import proofs.«175147_j18545668784711_1_alg».proof.Proof.K.Reg1
import proofs.«175147_j18545668784711_1_alg».proof.Proof.K.Reg2

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev Va : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev Vb : (c : Dev nD) → (b : Ref sig .tc) → Buf (Elt F) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev Vc : (c : Dev nD) → (b : Ref sig .tc) → Buf (Elt F) ((c : Thread nD τ).loc b) := fun c b => W2 m ρ c b
theorem hF1 (c : Dev nD) (w : Fin cfg1.W) : (dat1 (Vb m ρ) c).arrAt w cfg1.N = Vc m ρ c (Pipeline.arrRef spec1 w) :=
  (W2_arr m ρ c w).symm
theorem hrest1 (c : Dev nD) : ∀ b, b ∉ Finset.univ.image (Pipeline.arrRef spec1) → Vc m ρ c b = Vb m ρ c b :=
  fun b hb => W2_of_ne m ρ c b fun w e => hb (Finset.mem_image.mpr ⟨w, Finset.mem_univ _, e⟩)

/-- At the third region's exit. -/
def W3 (c : Dev nD) : Valuation τ sig (Elt F) :=
  Pipeline.withArrays spec2 c (W2 m ρ c) fun w => (dat2 (Vc m ρ) c).arrAt w cfg2.N
theorem W3_arr (c : Dev nD) (w : Fin cfg2.W) :
    W3 m ρ c (Proc.devRef .tc (Pipeline.arrRef spec2 w)) = (dat2 (Vc m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's references. -/
abbrev Vd : (c : Dev nD) → (b : Ref sig .tc) → Buf (Elt F) ((c : Thread nD τ).loc b) := fun c b => W3 m ρ c b
theorem hF2 (c : Dev nD) (w : Fin cfg2.W) : (dat2 (Vc m ρ) c).arrAt w cfg2.N = Vd m ρ c (Pipeline.arrRef spec2 w) :=
  (W3_arr m ρ c w).symm
theorem hrest2 (c : Dev nD) : ∀ b, b ∉ Finset.univ.image (Pipeline.arrRef spec2) → Vd m ρ c b = Vc m ρ c b :=
  fun b hb => W3_of_ne m ρ c b fun w e => hb (Finset.mem_image.mpr ⟨w, Finset.mem_univ _, e⟩)

/-- After the four host operations. -/
abbrev W4 : Dev nD → Valuation τ sig (Elt F) := fun c => StableHlo.after hostOps3 (W3 m ρ c)

/-! ## No region and no host operation writes an argument -/

theorem hostOps3_keeps (c : Dev nD) (b : Ref sig .tc) (hb : b ≠ main_v3 ∧ b ≠ main_v4 ∧ b ≠ main_cst ∧ b ≠ main_v5) :
    W4 m ρ c (Proc.devRef .tc b) = W3 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps3_keeps m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps3_keeps m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (Va m ρ) c).arrAt_in 1 rfl _).trans (A_eq0 (Va m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps3_keeps m ρ c main_arg2 (by decide)
    _ = W2 m ρ c (Proc.devRef .tc main_arg2) := W3_of_ne m ρ c main_arg2 (by decide)
    _ = W1 m ρ c (Proc.devRef .tc main_arg2) := (W2_arr m ρ c 0).trans (((dat1 (Vb m ρ) c).arrAt_in 0 rfl _).trans (A_eq1 (Vb m ρ) c 0))
    _ = W0 m ρ c (Proc.devRef .tc main_arg2) := W1_of_ne m ρ c main_arg2 (by decide)
    _ = m ((c : Thread nD τ).loc main_arg2) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
  | ⟨2, _⟩ => fun c => dat2 (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps3_fresh : (hostOps3 : List (HloOp τ sig (Elt F))).Forall fun op => op.fresh = ∅ := by
  simp only [List.Forall]; repeat' constructor

/-- The host operations as a segment from the third region's exit contents. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the boundary before it, left at the one
    after it; its arrays are split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it; its arrays are split out of the unscoped buffers and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one
    after it; its arrays are split out of the unscoped buffers and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (Vc m ρ) c)
    unfold Pipeline.ΦA
    iintro ⟨Hp, -, Hr⟩
    isplitl [Hr]; · iexact Hr
    iexact Hp
  hout c := by
    rw [Pipeline.ownSems0_none]
    refine (hout2 (Vc m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ), .host (hseg3 m ρ) ]

theorem main_run (c : Dev nD) : main (F := F) c = Pipeline.Seg.run (segs m ρ) := (main_chain c).trans (by chain_rfl)

set_option backward.isDefEq.respectTransparency.types false in
/-- Every weakly fair execution of the program from memory `m` with zero counters terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show (iprop(StableHlo.held (c : Thread nD τ) (Pipeline.ucRefs τ sig) (W4 m ρ c)
          ∗ ((∃ r, prngReg c r) ∗ ∃ W, owes (c : Thread nD τ) (0 : CellTallies nD τ sig Unit) W)) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Frm

end
-- ==== Proof.KI.Reg0.lean ====
/-
  The first kernel region: eight grid points, each normalising a block of 512 rows of the two
  row-major inputs. Per point the body reads the two input blocks whole, writes the first input's
  block divided row by row by the clamped Euclidean norm of the row (narrowed to sixteen bits), and
  writes the column of row-wise inner products of the two normalised blocks. Stated at an arbitrary
  valuation of the buffers at the region's entry: what each output block holds after the body as a
  function of the input blocks, the body's triple, the region's proof data and its obligation.
-/
import proofs.«175147_j18545668784711_1_alg».proof.Proof.Gen.KernelIdeal.Launch
import proofs.«175147_j18545668784711_1_alg».proof.Proof.Gen.KernelIdeal.Skeleton
import proofs.«175147_j18545668784711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over the entry arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The whole 512×1024 block, as a rectangle. -/
abbrev rb0 : Rect S512x1024 := Rect.unit (s := S512x1024) ![0, 0] S512x1024.size inb_S512x1024_S512x1024_0_0
/-- The whole 512×1 column, as a rectangle. -/
abbrev rc0 : Rect S512x1 := Rect.unit (s := S512x1) ![0, 0] S512x1.size inb_S512x1_S512x1_0_0

/-- The normalised block the body leaves in the third window's buffer. -/
def out0_2 (x0 : Vec F S512x1024 .f32) : Vec F S512x1024 .bf16 :=
  View.canon [⟨rb0, k0_pay3 (View.ld x0 rb0)⟩]

/-- The column of inner products the body leaves in the fourth window's buffer. -/
def out0_3 (x0 x1 : Vec F S512x1024 .f32) : Vec F S512x1 .f32 :=
  View.canon [⟨rc0, k0_pay2 (View.ld x0 rb0) (View.ld x1 rb0)⟩]

theorem cover0_2 (p0 : Vec F S512x1024 .bf16) (y : S512x1024.Idx) :
    ∃ pc ∈ ([⟨rb0, p0⟩] : List (View.Piece (Elt F) S512x1024 .bf16)), y ∈ pc.1.set :=
  View.cover_of_tiled [⟨rb0, p0⟩] S512x1024.size (by rfl) y

theorem cover0_3 (p0 : Vec F S512x1 .f32) (y : S512x1.Idx) :
    ∃ pc ∈ ([⟨rc0, p0⟩] : List (View.Piece (Elt F) S512x1 .f32)), y ∈ pc.1.set :=
  View.cover_of_tiled [⟨rc0, p0⟩] S512x1.size (by rfl) y

set_option maxHeartbeats 1000000 in
/-- The body on whole staging buffers: the inputs are kept, each output ends at its function of the inputs. -/
theorem sound_kernel0 (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .bf16) (harg3 : arg3.IsWhole) (arg4 : Memref sig .tc .vmem S512x1 .f32) (harg4 : arg4.IsWhole)
    (x0 x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__normalize_qk_kernel i arg1 harg1 arg2 harg2 arg3 harg3 arg4 harg4) K := by
  simp only [cc0__normalize_qk_kernel_eq_skeleton]; unfold cc0__normalize_qk_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

section
variable (V : (c : Dev nD) → (b : Ref sig .tc) → Buf (Elt F) ((c : Thread nD τ).loc b))

/-- The region's proof data on core `c`: the arrays as found; after the body each input buffer at its block and
    each output buffer at its function of the input blocks; the invariant the untouched scoped rest and the
    generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.KI.Reg1.lean ====
/-
  The second kernel region: sixteen grid points, each normalising a block of 512 rows of the third
  input. Per point the body reads the block whole and writes it divided row by row by the clamped
  Euclidean norm of the row (narrowed to sixteen bits). Stated at an arbitrary valuation of the
  buffers at the region's entry.
-/
import proofs.«175147_j18545668784711_1_alg».proof.Proof.Gen.KernelIdeal.Launch
import proofs.«175147_j18545668784711_1_alg».proof.Proof.Gen.KernelIdeal.Skeleton
import proofs.«175147_j18545668784711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end

/-- The whole 512×1024 block, as a rectangle. -/
abbrev rb1 : Rect S512x1024 := Rect.unit (s := S512x1024) ![0, 0] S512x1024.size inb_S512x1024_S512x1024_0_0

/-- The normalised block the body leaves in the output window's buffer. -/
def out1_1 (x0 : Vec F S512x1024 .f32) : Vec F S512x1024 .bf16 :=
  View.canon [⟨rb1, k1_pay1 (View.ld x0 rb1)⟩]

theorem cover1_1 (p0 : Vec F S512x1024 .bf16) (y : S512x1024.Idx) :
    ∃ pc ∈ ([⟨rb1, p0⟩] : List (View.Piece (Elt F) S512x1024 .bf16)), y ∈ pc.1.set :=
  View.cover_of_tiled [⟨rb1, p0⟩] S512x1024.size (by rfl) y

set_option maxHeartbeats 1000000 in
/-- The body on whole staging buffers: the input is kept, the output ends at its function of the input. -/
theorem sound_kernel1 (c : Dev nD) (E : Set ℕ) (i : grid1.Coords)
    (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_queue_kernel i arg1 harg1 arg2 harg2) K := by
  simp only [cc1__normalize_queue_kernel_eq_skeleton]; unfold cc1__normalize_queue_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

section
variable (V : (c : Dev nD) → (b : Ref sig .tc) → Buf (Elt F) ((c : Thread nD τ).loc b))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.KernelIdeal.Frm

end
-- ==== Proof.KI.Reg2.lean ====
/-
  The third kernel region: a 4 × 8 grid, the second axis innermost. At point (b, j) the body multiplies
  block b of the normalised first input (1024 rows) with the transpose of block j of the normalised third
  input (1024 rows), adds margin minus the block's column of cosines to every row, clamps at zero, sums the
  whole 1024 × 1024 tile to one number and adds it, replicated, to an 8 × 128 accumulator kept in scratch
  memory. The accumulator is zeroed at j = 0 and copied to row-tile b of the output at j = 7; at the other
  points the output window is idle. Stated at an arbitrary valuation of the buffers at the region's entry:
  the two branch conditions decided over the grid, the body's triple in each of the three cases, the
  accumulator after each point by recursion on the point, the region's proof data with the accumulator's
  contents carried in the invariant, and its obligation.
-/
import proofs.«175147_j18545668784711_1_alg».proof.Proof.Gen.KernelIdeal.Launch
import proofs.«175147_j18545668784711_1_alg».proof.Proof.Gen.KernelIdeal.Skeleton
import proofs.«175147_j18545668784711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- The accumulator is zeroed: the second grid coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The accumulator is copied out: the second grid coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

abbrev rs2 : Rect S8x128 := Rect.unit (s := S8x128) ![0, 0] S8x128.size inb_S8x128_S8x128_0_0
abbrev rq2 : Rect S1024x1024 := Rect.unit (s := S1024x1024) ![0, 0] S1024x1024.size inb_S1024x1024_S1024x1024_0_0
abbrev rp2 : Rect S1024x1 := Rect.unit (s := S1024x1) ![0, 0] S1024x1.size inb_S1024x1_S1024x1_0_0
abbrev ro2 : Rect S1x8x128 := Rect.unit (s := S1x8x128) ![0, 0, 0] S1x8x128.size inb_S1x8x128_S1x8x128_0_0_0

def zero2 : Vec F S8x128 .f32 := k2_pay1
def acc2 (x0 : Vec F S1024x1024 .bf16) (x1 : Vec F S1024x1 .f32) (x2 : Vec F S1024x1024 .bf16) (s : Vec F S8x128 .f32) : Vec F S8x128 .f32 :=
  k2_pay2 x0 x2 x1 s
def flush2 (s : Vec F S8x128 .f32) : Vec F S1x8x128 .f32 := k2_pay3 s

theorem hz2 : (![0, 0] : Fin 2 → ℕ) = fun _ => 0 := by funext a; fin_cases a <;> rfl
theorem hz3 : (![0, 0, 0] : Fin 3 → ℕ) = fun _ => 0 := by funext a; fin_cases a <;> rfl

theorem scover2 (p0 : Vec F S8x128 .f32) (y : S8x128.Idx) :
    ∃ pc ∈ ([⟨rs2, p0⟩] : List (View.Piece (Elt F) S8x128 .f32)), y ∈ pc.1.set :=
  View.cover_of_tiled [⟨rs2, p0⟩] S8x128.size (by rfl) y

set_option maxHeartbeats 1000000 in
theorem sound_kernel2_B (c : Dev nD) (E : Set ℕ) (i : grid2.Coords) (hc0 : ¬cond2_0 i) (hc1 : ¬cond2_1 i)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x8x128 .f32) (harg5 : arg5.IsWhole)
    (arg6 : Memref sig .tc .vmem S8x128 .f32) (harg6 : arg6.IsWhole)
    (x0 : Vec F S1024x1024 .bf16) (x1 : Vec F S1024x1 .f32) (x2 : Vec F S1024x1024 .bf16) (xi : Vec F S1x8x128 .f32) (s : Vec F S8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (acc2 x0 x1 x2 s)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (scover2 _)).trans ?_
  unfold acc2
  rw [View.canon_unit_zero (S := S8x128) hz2]
  simp only [View.readAt_eq_ld, View.ld_unit_zero (S := S1024x1024) hz2, View.ld_unit_zero (S := S1024x1) hz2, View.ld_unit_zero (S := S8x128) hz2]

set_option maxHeartbeats 1000000 in
theorem sound_kernel2_A (c : Dev nD) (E : Set ℕ) (i : grid2.Coords) (hc0 : cond2_0 i) (hc1 : ¬cond2_1 i)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x8x128 .f32) (harg5 : arg5.IsWhole)
    (arg6 : Memref sig .tc .vmem S8x128 .f32) (harg6 : arg6.IsWhole)
    (x0 : Vec F S1024x1024 .bf16) (x1 : Vec F S1024x1 .f32) (x2 : Vec F S1024x1024 .bf16) (xi : Vec F S1x8x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (acc2 x0 x1 x2 zero2)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  refine (View.read_writes_eq_canon _ _ _ (fun y => ⟨_, List.mem_cons_self, View.mem_set_unit_zero hz2 inb_S8x128_S8x128_0_0 y⟩)).trans ?_
  unfold acc2 zero2
  rw [View.canon_cons_unit_zero (S := S8x128) hz2]
  simp only [View.readAt_eq_ld, View.ld_unit_zero (S := S1024x1024) hz2, View.ld_unit_zero (S := S1024x1) hz2, View.readCov_unit_zero (S := S8x128) _ hz2]

set_option maxHeartbeats 1000000 in
theorem sound_kernel2_C (c : Dev nD) (E : Set ℕ) (i : grid2.Coords) (hc0 : ¬cond2_0 i) (hc1 : cond2_1 i)
    (arg2 : Memref sig .tc .vmem S1024x1024 .bf16) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1x8x128 .f32) (harg5 : arg5.IsWhole)
    (arg6 : Memref sig .tc .vmem S8x128 .f32) (harg6 : arg6.IsWhole)
    (x0 : Vec F S1024x1024 .bf16) (x1 : Vec F S1024x1 .f32) (x2 : Vec F S1024x1024 .bf16) (s : Vec F S8x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (flush2 (acc2 x0 x1 x2 s)) ∗ owns (c : Thread nD τ) arg6 fullShare (acc2 x0 x1 x2 s)) -∗ K ⟨⟩))
      ⊢ wp frame (wpE (defs₀ (F := F)) Variants.none c none) E (cc2__hinge_sum_kernel i arg2 harg2 arg3 harg3 arg4 harg4 arg5 harg5 arg6 harg6) K := by
  simp only [cc2__hinge_sum_kernel_eq_skeleton]; unfold cc2__hinge_sum_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    refine (View.read_writes_eq_canon _ _ _ (fun y => ⟨_, List.mem_singleton_self _, View.mem_set_unit_zero hz3 inb_S1x8x128_S1x8x128_0_0_0 y⟩)).trans ?_
    unfold flush2 acc2
    rw [View.canon_unit_zero (S := S1x8x128) hz3]
    simp only [View.readAt_eq_ld, View.ld_unit_zero (S := S1024x1024) hz2, View.ld_unit_zero (S := S1024x1) hz2, View.ld_unit_zero (S := S8x128) hz2, View.readCov_unit_zero (S := S8x128) _ hz2]
  iexists _; isplitr
  swap; · iexact H4
  ipureintro
  refine (View.read_writes_eq_canon _ _ _ (scover2 _)).trans ?_
  unfold acc2
  rw [View.canon_unit_zero (S := S8x128) hz2]
  simp only [View.readAt_eq_ld, View.ld_unit_zero (S := S1024x1024) hz2, View.ld_unit_zero (S := S1024x1) hz2, View.ld_unit_zero (S := S8x128) hz2]

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the accumulator is not copied out the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- The scratch accumulator, a whole scoped buffer of the kernel's own. -/
abbrev scM2 : Memref sig .tc .vmem S8x128 .f32 := Memref.whole cc2_scratch0

/-- The class invariant with the accumulator's buffer split off the other scoped buffers. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole, bigSepL]
  try rfl

section
variable (V : (c : Dev nD) → (b : Ref sig .tc) → Buf (Elt F) ((c : Thread nD τ).loc b))

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- What the scratch accumulator holds after the body at position `n`: the tile's sum added to zero where the
    second coordinate is 0, to what the point before left elsewhere. -/
def sAt2 (c : Dev nD) : (n : ℕ) → n < cfg2.N → Vec F S8x128 .f32
  | 0, hn => acc2 (iblk2 V c 0 ⟨0, hn⟩) (iblk2 V c 1 ⟨0, hn⟩) (iblk2 V c 2 ⟨0, hn⟩) zero2
  | n + 1, hn =>
    if (n + 1) % 8 = 0 then acc2 (iblk2 V c 0 ⟨n + 1, hn⟩) (iblk2 V c 1 ⟨n + 1, hn⟩) (iblk2 V c 2 ⟨n + 1, hn⟩) zero2
    else acc2 (iblk2 V c 0 ⟨n + 1, hn⟩) (iblk2 V c 1 ⟨n + 1, hn⟩) (iblk2 V c 2 ⟨n + 1, hn⟩) (sAt2 c n (Nat.lt_of_succ_lt hn))

theorem sAt2_reset (c : Dev nD) (t : Fin cfg2.N) (h0 : t.val % 8 = 0) :
    sAt2 V c t.val t.isLt = acc2 (iblk2 V c 0 t) (iblk2 V c 1 t) (iblk2 V c 2 t) zero2 := by
  obtain ⟨n, hn⟩ := t
  cases n with
  | zero => rfl
  | succ n => exact if_pos h0

theorem sAt2_step (c : Dev nD) (t : Fin cfg2.N) (h0 : ¬t.val % 8 = 0) :
    sAt2 V c t.val t.isLt = acc2 (iblk2 V c 0 t) (iblk2 V c 1 t) (iblk2 V c 2 t)
      (sAt2 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: the class's before the first point; afterwards the accumulator at what
    the point before left, the other scoped buffers at anything and the generator register at some state. -/
def PhiS2 (c : Dev nD) : (n : ℕ) → n ≤ cfg2.N → sProp 𝕄
  | 0, _ => Pipeline.ΦA spec2 c
  | n + 1, hn => iprop((owns (c : Thread nD τ) scM2 fullShare (sAt2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (sAt2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop((owns (c : Thread nD τ) scM2 fullShare (sAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The region's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => flush2 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = flush2 (sAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [sAt2_reset V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond2_0 (grid2.coords t) := fun h => h0 ((hcond2_0 t).mp h)
    rw [sAt2_step V c t h0]
    rw [PhiS2_castSucc V c t, PhiS2_pos V c _ _ hz]
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, sAt2_step V c t h0]
      iintro ⟨⟨⟨HS, HR⟩, Hg⟩, Ho, ⟨%d0, H0⟩, ⟨%d1, H1⟩, ⟨%d2, H2⟩, ⟨%d3, H3⟩⟩
      iapply (sound_kernel2_C c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨⟨HS, HR⟩, Hg⟩, Ho, ⟨%d0, H0⟩, ⟨%d1, H1⟩, ⟨%d2, H2⟩, ⟨%d3, H3⟩⟩
      iapply (sound_kernel2_B c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitr [Hg]
  · isplitl [HS]; · iexists _; iexact HS
    iexact HR
  iexact Hg

end

end Cert.KernelIdeal.Frm

end
-- ==== Proof.KI.Run.lean ====
/-
  The whole program's run: three kernel regions, then four host operations (a slice of one entry per
  row-tile, a reshape, a zero constant, a sum of the four entries). The buffers' contents at each boundary
  are folded from the launch memory: a region leaves its arrays at what its write-backs make of them and
  every other buffer as it found it; the host operations leave their results. Every weakly fair execution
  terminates, nothing faulting, with every unscoped buffer at the last boundary's contents; no operation
  and no region writes an argument, so the arguments end as launched.
-/
import proofs.«175147_j18545668784711_1_alg».proof.Proof.Gen.KernelIdeal.Launch
import proofs.«175147_j18545668784711_1_alg».proof.Proof.Gen.KernelIdeal.Skeleton
import proofs.«175147_j18545668784711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«175147_j18545668784711_1_alg».proof.Proof.KI.Reg0
import proofs.«175147_j18545668784711_1_alg».proof.Proof.KI.Reg1
import proofs.«175147_j18545668784711_1_alg».proof.Proof.KI.Reg2

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev Va : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev Vb : (c : Dev nD) → (b : Ref sig .tc) → Buf (Elt F) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev Vc : (c : Dev nD) → (b : Ref sig .tc) → Buf (Elt F) ((c : Thread nD τ).loc b) := fun c b => W2 m ρ c b
theorem hF1 (c : Dev nD) (w : Fin cfg1.W) : (dat1 (Vb m ρ) c).arrAt w cfg1.N = Vc m ρ c (Pipeline.arrRef spec1 w) :=
  (W2_arr m ρ c w).symm
theorem hrest1 (c : Dev nD) : ∀ b, b ∉ Finset.univ.image (Pipeline.arrRef spec1) → Vc m ρ c b = Vb m ρ c b :=
  fun b hb => W2_of_ne m ρ c b fun w e => hb (Finset.mem_image.mpr ⟨w, Finset.mem_univ _, e⟩)

/-- At the third region's exit. -/
def W3 (c : Dev nD) : Valuation τ sig (Elt F) :=
  Pipeline.withArrays spec2 c (W2 m ρ c) fun w => (dat2 (Vc m ρ) c).arrAt w cfg2.N
theorem W3_arr (c : Dev nD) (w : Fin cfg2.W) :
    W3 m ρ c (Proc.devRef .tc (Pipeline.arrRef spec2 w)) = (dat2 (Vc m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's references. -/
abbrev Vd : (c : Dev nD) → (b : Ref sig .tc) → Buf (Elt F) ((c : Thread nD τ).loc b) := fun c b => W3 m ρ c b
theorem hF2 (c : Dev nD) (w : Fin cfg2.W) : (dat2 (Vc m ρ) c).arrAt w cfg2.N = Vd m ρ c (Pipeline.arrRef spec2 w) :=
  (W3_arr m ρ c w).symm
theorem hrest2 (c : Dev nD) : ∀ b, b ∉ Finset.univ.image (Pipeline.arrRef spec2) → Vd m ρ c b = Vc m ρ c b :=
  fun b hb => W3_of_ne m ρ c b fun w e => hb (Finset.mem_image.mpr ⟨w, Finset.mem_univ _, e⟩)

/-- After the four host operations. -/
abbrev W4 : Dev nD → Valuation τ sig (Elt F) := fun c => StableHlo.after hostOps3 (W3 m ρ c)

/-! ## No region and no host operation writes an argument -/

theorem hostOps3_keeps (c : Dev nD) (b : Ref sig .tc) (hb : b ≠ main_v3 ∧ b ≠ main_v4 ∧ b ≠ main_cst ∧ b ≠ main_v5) :
    W4 m ρ c (Proc.devRef .tc b) = W3 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps3_keeps m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps3_keeps m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (Va m ρ) c).arrAt_in 1 rfl _).trans (A_eq0 (Va m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps3_keeps m ρ c main_arg2 (by decide)
    _ = W2 m ρ c (Proc.devRef .tc main_arg2) := W3_of_ne m ρ c main_arg2 (by decide)
    _ = W1 m ρ c (Proc.devRef .tc main_arg2) := (W2_arr m ρ c 0).trans (((dat1 (Vb m ρ) c).arrAt_in 0 rfl _).trans (A_eq1 (Vb m ρ) c 0))
    _ = W0 m ρ c (Proc.devRef .tc main_arg2) := W1_of_ne m ρ c main_arg2 (by decide)
    _ = m ((c : Thread nD τ).loc main_arg2) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
  | ⟨2, _⟩ => fun c => dat2 (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps3_fresh : (hostOps3 : List (HloOp τ sig (Elt F))).Forall fun op => op.fresh = ∅ := by
  simp only [List.Forall]; repeat' constructor

/-- The host operations as a segment from the third region's exit contents. -/
abbrev hseg3 : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the boundary before it, left at the one
    after it; its arrays are split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it; its arrays are split out of the unscoped buffers and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one
    after it; its arrays are split out of the unscoped buffers and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (Vc m ρ) c)
    unfold Pipeline.ΦA
    iintro ⟨Hp, -, Hr⟩
    isplitl [Hr]; · iexact Hr
    iexact Hp
  hout c := by
    rw [Pipeline.ownSems0_none]
    refine (hout2 (Vc m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ), .host (hseg3 m ρ) ]

theorem main_run (c : Dev nD) : main (F := F) c = Pipeline.Seg.run (segs m ρ) := (main_chain c).trans (by chain_rfl)

set_option backward.isDefEq.respectTransparency.types false in
/-- Every weakly fair execution of the program from memory `m` with zero counters terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show (iprop(StableHlo.held (c : Thread nD τ) (Pipeline.ucRefs τ sig) (W4 m ρ c)
          ∗ ((∃ r, prngReg c r) ∗ ∃ W, owes (c : Thread nD τ) (0 : CellTallies nD τ sig Unit) W)) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Frm

end
-- ==== Proof.Spec.lean ====
/-
  The quantity both programs compute, as plain mathematics over the extended reals. Each row of an
  input is divided by its Euclidean norm clamped from below; for every pair (row r of the first input,
  row n of the third) the hinge of  margin − ⟨q̂_r, k̂_r⟩ + ⟨q̂_r, û_n⟩  against zero is taken; the result
  is the sum of all 4096 × 8192 hinges. The same sum grouped into 4 × 8 tiles of 1024 × 1024 pairs is the
  order in which a tiled evaluation accumulates it; the two groupings agree because addition of extended
  reals is commutative and associative (no finiteness is needed).
-/
import Idealize.ShloMosaic.PureOps.Ideal
import Idealize.ShloMosaic.PureOps.Ideal.Laws
import Idealize.ShloMosaic.Lib.ValueIdx
import Mathlib.Logic.Equiv.Fin.Basic
import Mathlib.Data.Fintype.BigOperators

noncomputable section

open scoped BigOperators

namespace Cert.Spec

open Idealize.ShloMosaic Idealize.ShloMosaic.ValueIdx

/-- A row-major matrix of extended reals. -/
abbrev Mat (R C : ℕ) : Type := (⟨2, ![R, C]⟩ : Shape).Idx → EReal

/-- The lower clamp of a norm (the binary value of the single-precision word). -/
def eps : EReal := Ideal.ofBits .f32 0x322BCC77#32
/-- The hinge's margin (the binary value of the single-precision word). -/
def margin : EReal := Ideal.ofBits .f32 0x3E4CCCCD#32

/-- The clamped Euclidean norm of row `r`. -/
def rowNorm {R : ℕ} (x : Mat R 1024) (r : Fin R) : EReal :=
  max (Ideal.sqrt (∑ d : Fin 1024, x (ix2 r d) * x (ix2 r d))) eps

/-- Entry `d` of row `r` divided by the row's clamped norm. -/
def unitRow {R : ℕ} (x : Mat R 1024) (r : Fin R) (d : Fin 1024) : EReal :=
  Ideal.div (x (ix2 r d)) (rowNorm x r)

/-- The cosine of rows `r` of the first two inputs. -/
def pos (q k : Mat 4096 1024) (r : Fin 4096) : EReal := ∑ d : Fin 1024, unitRow q r d * unitRow k r d

/-- The cosine of row `r` of the first input and row `n` of the third. -/
def neg (q : Mat 4096 1024) (u : Mat 8192 1024) (r : Fin 4096) (n : Fin 8192) : EReal :=
  ∑ d : Fin 1024, unitRow q r d * unitRow u n d

/-- One pair's hinge. -/
def hinge (q k : Mat 4096 1024) (u : Mat 8192 1024) (r : Fin 4096) (n : Fin 8192) : EReal :=
  max ((margin - pos q k r) + neg q u r n) 0

/-- The sum over all pairs. -/
def total (q k : Mat 4096 1024) (u : Mat 8192 1024) : EReal := ∑ r : Fin 4096, ∑ n : Fin 8192, hinge q k u r n

/-- Row `r` of row-tile `b`. -/
def row (b : Fin 4) (r : Fin 1024) : Fin 4096 := ⟨b.val * 1024 + r.val, by omega⟩
/-- Column `n` of column-tile `j`. -/
def col (j : Fin 8) (n : Fin 1024) : Fin 8192 := ⟨j.val * 1024 + n.val, by omega⟩

/-- The sum over one tile of 1024 × 1024 pairs. -/
def tile (q k : Mat 4096 1024) (u : Mat 8192 1024) (b : Fin 4) (j : Fin 8) : EReal :=
  ∑ r : Fin 1024, ∑ n : Fin 1024, hinge q k u (row b r) (col j n)

/-- One pair's hinge from ALREADY normalised rows `qn`, `un` and a column of cosines `p`. -/
def hingeN (qn : Mat 4096 1024) (p : Fin 4096 → EReal) (un : Mat 8192 1024) (r : Fin 4096) (n : Fin 8192) : EReal :=
  max ((margin - p r) + ∑ d : Fin 1024, qn (ix2 r d) * un (ix2 n d)) 0

/-- The sum over one tile, from already normalised rows and a column of cosines. -/
def tileN (qn : Mat 4096 1024) (p : Fin 4096 → EReal) (un : Mat 8192 1024) (b : Fin 4) (j : Fin 8) : EReal :=
  ∑ r : Fin 1024, ∑ n : Fin 1024, hingeN qn p un (row b r) (col j n)

/-- A sum over `Fin (m * n)` is the double sum over the quotient and the remainder of the index:
    re-index through the bijection `(a, b) ↦ b + n * a`. Only commutativity and associativity of `+` are used. -/
theorem sum_fin_mul {M : Type*} [AddCommMonoid M] (m n : ℕ) (g : Fin (m * n) → M) :
    ∑ x, g x = ∑ a : Fin m, ∑ b : Fin n, g (finProdFinEquiv (a, b)) := by
  rw [← Equiv.sum_comp finProdFinEquiv g, Fintype.sum_prod_type]

/-- The bijection's value at `(b, r)` is row `r` of row-tile `b`. -/
theorem finProd_row (b : Fin 4) (r : Fin 1024) :
    (finProdFinEquiv (b, r) : Fin (4 * 1024)) = row b r := by
  apply Fin.ext
  show r.val + 1024 * b.val = b.val * 1024 + r.val
  omega

/-- The bijection's value at `(j, n)` is column `n` of column-tile `j`. -/
theorem finProd_col (j : Fin 8) (n : Fin 1024) :
    (finProdFinEquiv (j, n) : Fin (8 * 1024)) = col j n := by
  apply Fin.ext
  show n.val + 1024 * j.val = j.val * 1024 + n.val
  omega

/-- A sum over the 4096 rows is the sum over the 4 row-tiles of the sums over each tile's 1024 rows. -/
theorem sum_rows {M : Type*} [AddCommMonoid M] (g : Fin 4096 → M) :
    ∑ x, g x = ∑ b : Fin 4, ∑ r : Fin 1024, g (row b r) := by
  have h := sum_fin_mul 4 1024 g
  simp only [finProd_row] at h
  exact h

/-- A sum over the 8192 columns is the sum over the 8 column-tiles of the sums over each tile's 1024 columns. -/
theorem sum_cols {M : Type*} [AddCommMonoid M] (g : Fin 8192 → M) :
    ∑ x, g x = ∑ j : Fin 8, ∑ n : Fin 1024, g (col j n) := by
  have h := sum_fin_mul 8 1024 g
  simp only [finProd_col] at h
  exact h

/-- With the normalised rows and the cosines put in, the two forms of a tile's sum are one. -/
theorem tileN_unit (q k : Mat 4096 1024) (u : Mat 8192 1024) (b : Fin 4) (j : Fin 8) :
    tileN (fun i => unitRow q (i 0) (i 1)) (pos q k) (fun i => unitRow u (i 0) (i 1)) b j = tile q k u b j := by
  -- a coordinate of `ix2 r d` is `r` or `d` by computation, so the summands are the same terms
  rfl

/-- The sum grouped by tiles. -/
def tiled (q k : Mat 4096 1024) (u : Mat 8192 1024) : EReal := ∑ b : Fin 4, ∑ j : Fin 8, tile q k u b j

/-- Grouping the pairs into tiles does not change the sum. -/
theorem tiled_eq_total (q k : Mat 4096 1024) (u : Mat 8192 1024) : tiled q k u = total q k u := by
  unfold tiled total tile
  -- split the rows into row-tiles, then in each row the columns into column-tiles
  rw [sum_rows (fun r => ∑ n : Fin 8192, hinge q k u r n)]
  refine Finset.sum_congr rfl fun b _ => ?_
  -- for a fixed row-tile: bring the sum over the tile's rows outside the sum over the column-tiles
  rw [Finset.sum_comm]
  refine Finset.sum_congr rfl fun r _ => ?_
  exact (sum_cols (fun n => hinge q k u (row b r) n)).symm

end Cert.Spec

end
-- ==== Proof.KI.Val01.lean ====
/-
  What the first two kernel regions leave in their output arrays, read at the exact instance: every entry of
  the first region's first output is the corresponding entry of the first input divided by its row's clamped
  norm; every entry of its second output is the cosine of the two inputs' rows; every entry of the second
  region's output is the third input's entry divided by its row's clamped norm.
-/
import proofs.«175147_j18545668784711_1_alg».proof.Proof.KI.Reg0
import proofs.«175147_j18545668784711_1_alg».proof.Proof.KI.Reg1
import proofs.«175147_j18545668784711_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

section Layout
variable {α : Type}

/-- A vector of length a viewed as a column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at (p, q), the column at (p, 0). -/
theorem broadcastTo_a1_ab_apply {a b : ℕ} (ha : a ≠ 1) (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    rw [if_neg ha]
  | ⟨1, _⟩ => rfl

end Layout

/-- A sum along the rows of a block, read at row p. -/
theorem rowSum_apply (z : FVec Ideal S512x1024 .f32) (p : Fin 512) :
    multiReduction (F := Ideal) .add [1] S512 z 0x00000000#32 reduces_S512x1024_S512 (.inl rfl) rfl (ix1 p)
      = ∑ d : Fin 1024, z (ix2 p d) := by
  refine (Ideal.multiReduction_add_single z _ reduces_S512x1024_S512 (.inl rfl) rfl (ix1 p)).trans ?_
  refine Finset.sum_congr rfl fun d _ => ?_
  have e : reduces_S512x1024_S512.lift (ix1 p) d = ix2 p d := by
    funext a; match a with | ⟨0, _⟩ => rfl | ⟨1, _⟩ => rfl
  rw [e]; rfl

/-- The clamped norm column of a block, read at (p, u): the clamped Euclidean norm of row p. -/
theorem normCol_apply (x : Vec Ideal S512x1024 .f32) (p : Fin 512) (u : Fin 1) :
    maximumf (sqrt (shapeCast S512x1 (multiReduction (F := Ideal) .add [1] S512 (mulf x x) 0x00000000#32 reduces_S512x1024_S512 (.inl rfl) rfl) shapeCasts_S512_S512x1))
        (broadcast S512x1 (Scalar.ofBits (F := Ideal) .f32 0x322BCC77#32)) (ix2 p u)
      = Cert.Spec.rowNorm (x : Cert.Spec.Mat 512 1024) p := by
  show max (Ideal.sqrt (shapeCast S512x1 (multiReduction (F := Ideal) .add [1] S512 (mulf x x) 0x00000000#32 reduces_S512x1024_S512 (.inl rfl) rfl) shapeCasts_S512_S512x1 (ix2 p u)))
      (Ideal.ofBits .f32 0x322BCC77#32) = _
  rw [shapeCast_a_a1_apply, rowSum_apply]
  rfl

/-- A block divided by its broadcast norm column, read at (p, q). -/
theorem unitBlock_apply (x : Vec Ideal S512x1024 .f32) (p : Fin 512) (q : Fin 1024) :
    divf x (broadcastTo S512x1024 (maximumf (sqrt (shapeCast S512x1 (multiReduction (F := Ideal) .add [1] S512 (mulf x x) 0x00000000#32 reduces_S512x1024_S512 (.inl rfl) rfl) shapeCasts_S512_S512x1))
        (broadcast S512x1 (Scalar.ofBits (F := Ideal) .f32 0x322BCC77#32))) broadcasts_S512x1_S512x1024) (ix2 p q)
      = Cert.Spec.unitRow (x : Cert.Spec.Mat 512 1024) p q := by
  show Ideal.div (x (ix2 p q)) (broadcastTo S512x1024 _ broadcasts_S512x1_S512x1024 (ix2 p q)) = Ideal.div (x (ix2 p q)) (Cert.Spec.rowNorm (x : Cert.Spec.Mat 512 1024) p)
  rw [broadcastTo_a1_ab_apply (by decide), normCol_apply]

theorem k1_pay1_apply (x : Vec Ideal S512x1024 .f32) (p : Fin 512) (q : Fin 1024) :
    k1_pay1 x (ix2 p q) = Cert.Spec.unitRow (x : Cert.Spec.Mat 512 1024) p q := by
  unfold k1_pay1
  exact unitBlock_apply x p q

theorem k0_pay1_apply (x : Vec Ideal S512x1024 .f32) (p : Fin 512) (q : Fin 1024) :
    k0_pay1 x (ix2 p q) = Cert.Spec.unitRow (x : Cert.Spec.Mat 512 1024) p q := by
  unfold k0_pay1
  exact unitBlock_apply x p q

theorem k0_pay3_apply (x : Vec Ideal S512x1024 .f32) (p : Fin 512) (q : Fin 1024) :
    k0_pay3 x (ix2 p q) = Cert.Spec.unitRow (x : Cert.Spec.Mat 512 1024) p q := by
  unfold k0_pay3
  exact k0_pay1_apply x p q

theorem k0_pay2_apply (x0 x1 : Vec Ideal S512x1024 .f32) (p : Fin 512) (u : Fin 1) :
    k0_pay2 x0 x1 (ix2 p u)
      = ∑ d : Fin 1024, Cert.Spec.unitRow (x0 : Cert.Spec.Mat 512 1024) p d * Cert.Spec.unitRow (x1 : Cert.Spec.Mat 512 1024) p d := by
  unfold k0_pay2
  refine (shapeCast_a_a1_apply _ shapeCasts_S512_S512x1 p u).trans ?_
  refine (rowSum_apply _ p).trans ?_
  refine Finset.sum_congr rfl fun d _ => ?_
  show k0_pay1 x0 (ix2 p d) * _ = _
  rw [k0_pay1_apply]
  exact congrArg _ (unitBlock_apply x1 p d)

/-- The zero offsets, however spelt. -/
theorem hz00 : (![0, 0] : Fin 2 → ℕ) = fun _ => 0 := funext fun a => by fin_cases a <;> rfl

/-- A normalised row depends only on the row's entries. -/
theorem unitRow_congr {R R' : ℕ} (A : Cert.Spec.Mat R 1024) (B : Cert.Spec.Mat R' 1024) (r : Fin R) (r' : Fin R')
    (h : ∀ d : Fin 1024, A (ix2 r d) = B (ix2 r' d)) (q : Fin 1024) : Cert.Spec.unitRow A r q = Cert.Spec.unitRow B r' q := by
  unfold Cert.Spec.unitRow Cert.Spec.rowNorm
  simp only [h]

variable (V : (c : Dev nD) → (b : Ref sig .tc) → Buf (Elt Ideal) ((c : Thread nD τ).loc b))

/-! ## The first region -/

/-- The first region's block indices: at point t every window sits at block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block is row 512·t + p of the array. -/
def row0 (t : Fin cfg0.N) (p : Fin 512) : Fin 4096 := ⟨t.val * 512 + p.val, by have ht : t.val < 8 := t.isLt; omega⟩

/-- The first input's block at point t, read at (p, d). -/
theorem iblk0_0_apply (c : Dev nD) (t : Fin cfg0.N) (p : Fin 512) (d : Fin 1024) :
    iblk0 V c 0 t (ix2 p d) = (V c main_arg0 : Cert.Spec.Mat 4096 1024) (ix2 (row0 t p) d) := by
  show V c main_arg0 (((cfg0.win 0).blk t).view.emb (ix2 p d)) = _
  refine congrArg (V c main_arg0) ?_
  obtain ⟨e0, e1, -⟩ := idx_facts0 t
  funext a; apply Fin.ext
  match a with
  | ⟨0, _⟩ => show win0_0.index t (0 : Fin 2) * 512 + 1 * p.val = t.val * 512 + p.val; omega
  | ⟨1, _⟩ => show win0_0.index t (1 : Fin 2) * 1024 + 1 * d.val = d.val; omega

/-- The second input's block at point t, read at (p, d). -/
theorem iblk0_1_apply (c : Dev nD) (t : Fin cfg0.N) (p : Fin 512) (d : Fin 1024) :
    iblk0 V c 1 t (ix2 p d) = (V c main_arg1 : Cert.Spec.Mat 4096 1024) (ix2 (row0 t p) d) := by
  show V c main_arg1 (((cfg0.win 1).blk t).view.emb (ix2 p d)) = _
  refine congrArg (V c main_arg1) ?_
  obtain ⟨-, -, e2, e3, -⟩ := idx_facts0 t
  funext a; apply Fin.ext
  match a with
  | ⟨0, _⟩ => show win0_1.index t (0 : Fin 2) * 512 + 1 * p.val = t.val * 512 + p.val; omega
  | ⟨1, _⟩ => show win0_1.index t (1 : Fin 2) * 1024 + 1 * d.val = d.val; omega

/-- Where the first output block's entry (p, q) sits in its array. -/
theorem emb0_2 (t : Fin cfg0.N) (p : Fin 512) (q : Fin 1024) :
    ((cfg0.win 2).blk t).view.emb (ix2 p q) = (ix2 (row0 t p) q : S4096x1024.Idx) := by
  obtain ⟨-, -, -, -, e4, e5, -⟩ := idx_facts0 t
  funext a; apply Fin.ext
  match a with
  | ⟨0, _⟩ => show win0_2.index t (0 : Fin 2) * 512 + 1 * p.val = t.val * 512 + p.val; omega
  | ⟨1, _⟩ => show win0_2.index t (1 : Fin 2) * 1024 + 1 * q.val = q.val; omega

/-- Where the second output block's entry (p, u) sits in its array. -/
theorem emb0_3 (t : Fin cfg0.N) (p : Fin 512) (u : Fin 1) :
    ((cfg0.win 3).blk t).view.emb (ix2 p u) = (ix2 (row0 t p) u : S4096x1.Idx) := by
  obtain ⟨-, -, -, -, -, -, e6, e7⟩ := idx_facts0 t
  funext a; apply Fin.ext
  match a with
  | ⟨0, _⟩ => show win0_3.index t (0 : Fin 2) * 512 + 1 * p.val = t.val * 512 + p.val; omega
  | ⟨1, _⟩ => show win0_3.index t (1 : Fin 2) * 1 + 1 * u.val = u.val; omega

/-- The first region's first output array as one function of the first input. -/
abbrev G0_2 (a : Cert.Spec.Mat 4096 1024) : S4096x1024.Idx → Elt Ideal .bf16 := fun i => Cert.Spec.unitRow a (i 0) (i 1)

/-- The first region's second output array as one function of the first two inputs. -/
abbrev G0_3 (a b : Cert.Spec.Mat 4096 1024) : S4096x1.Idx → Elt Ideal .f32 := fun i => Cert.Spec.pos a b (i 0)

/-- What point t writes back to the first output is block t of that function. -/
theorem flushed0_2_eq (c : Dev nD) (t : Fin cfg0.N) :
    (dat0 V c).flushed 2 t = ((cfg0.win 2).blk t).view.read (Elt Ideal) (G0_2 (V c main_arg0)) := by
  show (cfg0.win 2).cut (grid0.coords t) ((dat0 V c).after 2 t) = _
  rw [after0_2]
  unfold out0_2
  rw [View.canon_unit_zero hz00]
  simp only [View.ld_unit_zero (S := S512x1024) hz00]
  funext y
  obtain ⟨p, q, rfl⟩ : ∃ (p : Fin 512) (q : Fin 1024), y = ix2 p q := ⟨y 0, y 1, eq_ix2 y⟩
  refine (k0_pay3_apply (iblk0 V c 0 t) p q).trans ?_
  show _ = G0_2 (V c main_arg0) (((cfg0.win 2).blk t).view.emb (ix2 p q))
  rw [emb0_2]
  exact unitRow_congr _ _ p (row0 t p) (fun d => iblk0_0_apply V c t p d) q

/-- What point t writes back to the second output is block t of that function. -/
theorem flushed0_3_eq (c : Dev nD) (t : Fin cfg0.N) :
    (dat0 V c).flushed 3 t = ((cfg0.win 3).blk t).view.read (Elt Ideal) (G0_3 (V c main_arg0) (V c main_arg1)) := by
  show (cfg0.win 3).cut (grid0.coords t) ((dat0 V c).after 3 t) = _
  rw [after0_3]
  unfold out0_3
  rw [View.canon_unit_zero hz00]
  simp only [View.ld_unit_zero (S := S512x1024) hz00]
  funext y
  obtain ⟨p, u, rfl⟩ : ∃ (p : Fin 512) (u : Fin 1), y = ix2 p u := ⟨y 0, y 1, eq_ix2 y⟩
  refine (k0_pay2_apply (iblk0 V c 0 t) (iblk0 V c 1 t) p u).trans ?_
  show _ = G0_3 (V c main_arg0) (V c main_arg1) (((cfg0.win 3).blk t).view.emb (ix2 p u))
  rw [emb0_3]
  show _ = ∑ d : Fin 1024, Cert.Spec.unitRow (V c main_arg0 : Cert.Spec.Mat 4096 1024) (row0 t p) d * Cert.Spec.unitRow (V c main_arg1 : Cert.Spec.Mat 4096 1024) (row0 t p) d
  refine Finset.sum_congr rfl fun d _ => ?_
  rw [unitRow_congr _ _ p (row0 t p) (fun d => iblk0_0_apply V c t p d) d,
    unitRow_congr _ _ p (row0 t p) (fun d => iblk0_1_apply V c t p d) d]

/-- An index of the first output array is in point t's block iff each coordinate is in the block's range. -/
theorem mem_blk0_2 (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0_0).slice (win0_2.rect t)).set ↔ _
  rw [View.set_slice_whole, Rect.mem_set_unit]
  exact Iff.rfl

/-- An index of the second output array is in point t's block iff each coordinate is in the block's range. -/
theorem mem_blk0_3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_1).slice (win0_3.rect t)).set ↔ _
  rw [View.set_slice_whole, Rect.mem_set_unit]
  exact Iff.rfl

/-- Every row of the first output lies in the block of the point numbered by the row's quotient by 512. -/
theorem covered0_2 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have ht : (i 0).val / 512 < 8 := by omega
  obtain ⟨-, -, -, -, e4, e5, -⟩ := idx_facts0 ⟨(i 0).val / 512, ht⟩
  refine ⟨⟨(i 0).val / 512, ht⟩, flush0_2 _, ?_⟩
  rw [mem_blk0_2]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512
    omega
  | ⟨1, _⟩ =>
    show win0_2.index ⟨(i 0).val / 512, ht⟩ (1 : Fin 2) * 1024 ≤ (i 1).val ∧ (i 1).val < win0_2.index ⟨(i 0).val / 512, ht⟩ (1 : Fin 2) * 1024 + 1024
    rw [e5]; omega

/-- Every row of the second output lies in the block of the point numbered by the row's quotient by 512. -/
theorem covered0_3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have ht : (i 0).val / 512 < 8 := by omega
  obtain ⟨-, -, -, -, -, -, e6, e7⟩ := idx_facts0 ⟨(i 0).val / 512, ht⟩
  refine ⟨⟨(i 0).val / 512, ht⟩, flush0_3 _, ?_⟩
  rw [mem_blk0_3]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; show (i 0).val / 512 * 512 ≤ (i 0).val ∧ (i 0).val < (i 0).val / 512 * 512 + 512
    omega
  | ⟨1, _⟩ =>
    show win0_3.index ⟨(i 0).val / 512, ht⟩ (1 : Fin 2) * 1 ≤ (i 1).val ∧ (i 1).val < win0_3.index ⟨(i 0).val / 512, ht⟩ (1 : Fin 2) * 1 + 1
    rw [e7]; omega

/-- Entry (r, d) of the first region's first output array after the region. -/
theorem final0_2 (c : Dev nD) (r : Fin 4096) (d : Fin 1024) :
    ((dat0 (F := Ideal) V c).arrAt 2 cfg0.N : S4096x1024.Idx → EReal) (ix2 r d) = Cert.Spec.unitRow (V c main_arg0 : Cert.Spec.Mat 4096 1024) r d := by
  have h := (dat0 V c).arrAt_eq_of_cover 2 (G0_2 (V c main_arg0)) (fun t _ => flushed0_2_eq V c t) covered0_2
  exact congrFun h (ix2 r d)

/-- Entry (r, 0) of the first region's second output array after the region. -/
theorem final0_3 (c : Dev nD) (r : Fin 4096) :
    ((dat0 (F := Ideal) V c).arrAt 3 cfg0.N : S4096x1.Idx → EReal) (ix2 r (0 : Fin 1))
      = Cert.Spec.pos (V c main_arg0 : Cert.Spec.Mat 4096 1024) (V c main_arg1 : Cert.Spec.Mat 4096 1024) r := by
  have h := (dat0 V c).arrAt_eq_of_cover 3 (G0_3 (V c main_arg0) (V c main_arg1)) (fun t _ => flushed0_3_eq V c t) covered0_3
  exact congrFun h (ix2 r (0 : Fin 1))

/-! ## The second region -/

/-- The second region's block indices: at point t both windows sit at block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row p of point t's block is row 512·t + p of the array. -/
def row1 (t : Fin cfg1.N) (p : Fin 512) : Fin 8192 := ⟨t.val * 512 + p.val, by have ht : t.val < 16 := t.isLt; omega⟩

/-- The input block of the second region at point t, read at (p, d). -/
theorem iblk1_apply (c : Dev nD) (t : Fin cfg1.N) (p : Fin 512) (d : Fin 1024) :
    iblk1 V c 0 t (ix2 p d) = (V c main_arg2 : Cert.Spec.Mat 8192 1024) (ix2 (row1 t p) d) := by
  show V c main_arg2 (((cfg1.win 0).blk t).view.emb (ix2 p d)) = _
  refine congrArg (V c main_arg2) ?_
  obtain ⟨e0, e1, e2, e3⟩ := idx_facts1 t
  funext a; apply Fin.ext
  match a with
  | ⟨0, _⟩ => show win1_0.index t (0 : Fin 2) * 512 + 1 * p.val = t.val * 512 + p.val; omega
  | ⟨1, _⟩ => show win1_0.index t (1 : Fin 2) * 1024 + 1 * d.val = d.val; omega

/-- Where the output block's entry (p, q) sits in the array. -/
theorem emb1_1 (t : Fin cfg1.N) (p : Fin 512) (q : Fin 1024) :
    ((cfg1.win 1).blk t).view.emb (ix2 p q) = (ix2 (row1 t p) q : S8192x1024.Idx) := by
  obtain ⟨e0, e1, e2, e3⟩ := idx_facts1 t
  funext a; apply Fin.ext
  match a with
  | ⟨0, _⟩ => show win1_1.index t (0 : Fin 2) * 512 + 1 * p.val = t.val * 512 + p.val; omega
  | ⟨1, _⟩ => show win1_1.index t (1 : Fin 2) * 1024 + 1 * q.val = q.val; omega

/-- The second region's output array as one function of the third input. -/
abbrev G1 (a : Cert.Spec.Mat 8192 1024) : S8192x1024.Idx → Elt Ideal .bf16 := fun i => Cert.Spec.unitRow a (i 0) (i 1)

/-- What point t writes back is block t of that function. -/
theorem flushed1_1_eq (c : Dev nD) (t : Fin cfg1.N) :
    (dat1 V c).flushed 1 t = ((cfg1.win 1).blk t).view.read (Elt Ideal) (G1 (V c main_arg2)) := by
  show (cfg1.win 1).cut (grid1.coords t) ((dat1 V c).after 1 t) = _
  rw [after1_1]
  unfold out1_1
  rw [View.canon_unit_zero hz00]
  simp only [View.ld_unit_zero (S := S512x1024) hz00]
  funext y
  obtain ⟨p, q, rfl⟩ : ∃ (p : Fin 512) (q : Fin 1024), y = ix2 p q := ⟨y 0, y 1, eq_ix2 y⟩
  refine (k1_pay1_apply (iblk1 V c 0 t) p q).trans ?_
  show _ = G1 (V c main_arg2) (((cfg1.win 1).blk t).view.emb (ix2 p q))
  rw [emb1_1]
  exact unitRow_congr _ _ p (row1 t p) (fun d => iblk1_apply V c t p d) q

/-- An index of the array is in point t's output block iff each coordinate is in the block's range. -/
theorem mem_blk1_1 (t : Fin cfg1.N) (i : S8192x1024.Idx) :
    i ∈ ((cfg1.win 1).blk t).view.set ↔ ∀ a : Fin 2, win1_1.index t a * S512x1024.size a ≤ (i a).val ∧ (i a).val < win1_1.index t a * S512x1024.size a + S512x1024.size a := by
  show i ∈ ((View.whole main_v1).slice (win1_1.rect t)).set ↔ _
  rw [View.set_slice_whole, Rect.mem_set_unit]
  exact Iff.rfl

/-- Every row lies in the block of the point numbered by the row's quotient by 512. -/
theorem covered1_1 (i : S8192x1024.Idx) :
    ∃ t : Fin cfg1.N, (cfg1.win 1).flush t = true ∧ i ∈ ((cfg1.win 1).blk t).view.set := by
  have hi0 : (i 0).val < 8192 := (i 0).isLt
  have hi1 : (i 1).val < 1024 := (i 1).isLt
  have ht : (i 0).val / 512 < 16 := by omega
  obtain ⟨e0, e1, e2, e3⟩ := idx_facts1 ⟨(i 0).val / 512, ht⟩
  refine ⟨⟨(i 0).val / 512, ht⟩, flush1_1 _, ?_⟩
  rw [mem_blk1_1]
  intro a
  match a with
  | ⟨0, _⟩ =>
    show win1_1.index ⟨(i 0).val / 512, ht⟩ (0 : Fin 2) * 512 ≤ (i 0).val ∧ (i 0).val < win1_1.index ⟨(i 0).val / 512, ht⟩ (0 : Fin 2) * 512 + 512
    rw [e2]; show (i 0).val / 512 * 512 ≤ (i 0).val ∧ (i 0).val < (i 0).val / 512 * 512 + 512
    omega
  | ⟨1, _⟩ =>
    show win1_1.index ⟨(i 0).val / 512, ht⟩ (1 : Fin 2) * 1024 ≤ (i 1).val ∧ (i 1).val < win1_1.index ⟨(i 0).val / 512, ht⟩ (1 : Fin 2) * 1024 + 1024
    rw [e3]; omega

/-- Entry (n, d) of the second region's output array after the region. -/
theorem final1_1 (c : Dev nD) (n : Fin 8192) (d : Fin 1024) :
    ((dat1 (F := Ideal) V c).arrAt 1 cfg1.N : S8192x1024.Idx → EReal) (ix2 n d) = Cert.Spec.unitRow (V c main_arg2 : Cert.Spec.Mat 8192 1024) n d := by
  have h := (dat1 V c).arrAt_eq_of_cover 1 (G1 (V c main_arg2)) (fun t _ => flushed1_1_eq V c t) covered1_1
  exact congrFun h (ix2 n d)

end Cert.KernelIdeal.Frm

end
-- ==== Proof.KI.Val2.lean ====
/-
  What the third kernel region leaves in its output array, read at the exact instance: every entry of row-tile b
  is the sum over the eight column-tiles j of the tile's sum of hinges, computed from the region's three input
  arrays (normalised first input, column of cosines, normalised third input) as the region finds them.
-/
import proofs.«175147_j18545668784711_1_alg».proof.Proof.KI.Reg2
import proofs.«175147_j18545668784711_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The tile's product at an index

The third region's product contracts axis 1 of both operands: entry (r, n) is the sum over d of the first operand at
(r, d) times the second at (n, d). -/

theorem tileDot_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem tileDot_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem tileDot_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem tileDot_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry (r, n) of the product into a zero accumulator. -/
theorem tileDot_apply (x0 x2 : FVec Ideal S1024x1024 .bf16) (r n : Fin 1024) :
    matmul dot_S1024x1024_S1024x1024_S1024x1024_1_1_0_0_n_n none x0 x2 (constant (F := Ideal) S1024x1024 .f32 0x00000000#32) (ix2 r n)
      = ∑ d : Fin 1024, x0 (ix2 r d) * x2 (ix2 n d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r n) ((contrEquiv1 dot_S1024x1024_S1024x1024_S1024x1024_1_1_0_0_n_n 1024 rfl rfl).symm k) = ix2 r k := funext fun a => Fin.ext (by
    match a with
    | ⟨0, _⟩ => exact tileDot_lhs_0 _ _
    | ⟨1, _⟩ => exact (tileDot_lhs_1 _ _).trans hk)
  have er : dot_S1024x1024_S1024x1024_S1024x1024_1_1_0_0_n_n.rhsIdx (ix2 r n) ((contrEquiv1 dot_S1024x1024_S1024x1024_S1024x1024_1_1_0_0_n_n 1024 rfl rfl).symm k) = ix2 n k := funext fun a => Fin.ext (by
    match a with
    | ⟨0, _⟩ => exact tileDot_rhs_0 _ _
    | ⟨1, _⟩ => exact (tileDot_rhs_1 _ _).trans hk)
  rw [el, er]

/-! ## The layout operations and lane sums of the tile's reduction, at an index -/

/-- A column broadcast over 1024 columns reads the column's row. -/
theorem hingeColBroadcast_apply {α : Type} (v : S1024x1.Idx → α) (h : S1024x1.Broadcasts S1024x1024) (r n : Fin 1024) :
    broadcastTo S1024x1024 v h (ix2 r n) = v (ix2 r (0 : Fin 1)) := by
  refine broadcastTo_apply v h (ix2 r n) (ix2 r (0 : Fin 1)) fun ax => ?_
  match ax with
  | ⟨0, _⟩ =>
    show r.val = if (1024 : ℕ) = 1 then 0 else r.val
    rw [if_neg (by decide)]
  | ⟨1, _⟩ =>
    show (0 : ℕ) = if (1 : ℕ) = 1 then 0 else n.val
    rw [if_pos rfl]

/-- One number broadcast over the 8 × 128 accumulator reads that number. -/
theorem hingeOneBroadcast_apply {α : Type} (v : S1x1.Idx → α) (h : S1x1.Broadcasts S8x128) (a : Fin 8) (l : Fin 128) :
    broadcastTo S8x128 v h (ix2 a l) = v (ix2 (0 : Fin 1) (0 : Fin 1)) := by
  refine broadcastTo_apply v h (ix2 a l) (ix2 (0 : Fin 1) (0 : Fin 1)) fun ax => ?_
  match ax with
  | ⟨0, _⟩ =>
    show (0 : ℕ) = if (1 : ℕ) = 1 then 0 else a.val
    rw [if_pos rfl]
  | ⟨1, _⟩ =>
    show (0 : ℕ) = if (1 : ℕ) = 1 then 0 else l.val
    rw [if_pos rfl]

/-- A 1024-vector viewed as a column reads its entry. -/
theorem hingeColCast_apply {α : Type} (v : S1024.Idx → α) (h : S1024.ShapeCasts S1024x1) (r : Fin 1024) :
    shapeCast S1024x1 v h (ix2 r (0 : Fin 1)) = v (ix1 r) :=
  shapeCast_apply v h _ _ (by
    rw [Shape.rowMajor_val_one, Shape.rowMajor_val_two]
    show r.val = r.val * 1 + 0
    omega)

/-- The sum along a row of the tile. -/
theorem hingeRowSum_apply (v : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ n : Fin 1024, v (ix2 r n) := by
  refine (Ideal.multiReduction_add_single v 0x00000000#32 h hφ hacc (ix1 r)).trans ?_
  refine Finset.sum_congr rfl (fun n _ => congrArg v (funext fun a => ?_))
  match a with
  | ⟨0, _⟩ => rfl
  | ⟨1, _⟩ => rfl

/-- The sum down the column of row sums. -/
theorem hingeColSum_apply (v : FVec Ideal S1024x1 .f32) (h : S1024x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ r : Fin 1024, v (ix2 r (0 : Fin 1)) := by
  refine (Ideal.multiReduction_add_single v 0x00000000#32 h hφ hacc (ix1 (0 : Fin 1))).trans ?_
  refine Finset.sum_congr rfl (fun r _ => congrArg v (funext fun a => ?_))
  match a with
  | ⟨0, _⟩ => rfl
  | ⟨1, _⟩ => rfl

/-- The tile's product with both operands passed through a cast to their own shape. -/
theorem tileDot_cast_apply (x0 x2 : FVec Ideal S1024x1024 .bf16) (h0 h2 : S1024x1024.ShapeCasts S1024x1024) (r n : Fin 1024) :
    matmul dot_S1024x1024_S1024x1024_S1024x1024_1_1_0_0_n_n none (shapeCast S1024x1024 x0 h0) (shapeCast S1024x1024 x2 h2)
        (constant (F := Ideal) S1024x1024 .f32 0x00000000#32) (ix2 r n)
      = ∑ d : Fin 1024, x0 (ix2 r d) * x2 (ix2 n d) := by
  rw [shapeCast_self, shapeCast_self]
  exact tileDot_apply x0 x2 r n

/-! ## One point's update of the accumulator

Every entry of the accumulator after a point is what it held before plus the sum over the tile's 1024 × 1024 pairs of
the hinge of margin minus the row's cosine plus the pair's inner product. -/

theorem acc2_apply (x0 x2 : Vec Ideal S1024x1024 .bf16) (x1 : Vec Ideal S1024x1 .f32) (s : Vec Ideal S8x128 .f32)
    (a : Fin 8) (l : Fin 128) :
    acc2 (F := Ideal) x0 x1 x2 s (ix2 a l)
      = s (ix2 a l) + ∑ r : Fin 1024, ∑ n : Fin 1024,
          max ((Cert.Spec.margin - x1 (ix2 r (0 : Fin 1))) + ∑ d : Fin 1024, x0 (ix2 r d) * x2 (ix2 n d)) 0 := by
  unfold acc2 k2_pay2
  dsimp only
  refine (congrFun (shapeCast_self _ _) _).trans ?_
  refine (addf_apply _ _ _).trans ?_
  refine congrArg (s (ix2 a l) + ·) ?_
  refine (hingeOneBroadcast_apply _ _ a l).trans ?_
  refine (congrFun (shapeCast_self _ _) _).trans ?_
  refine (shapeCast_a_1a_apply _ _ (0 : Fin 1) (0 : Fin 1)).trans ?_
  refine (hingeColSum_apply _ _ _ _).trans ?_
  refine Finset.sum_congr rfl fun r _ => ?_
  refine (hingeColCast_apply _ _ r).trans ?_
  refine (hingeRowSum_apply _ _ _ _ r).trans ?_
  refine Finset.sum_congr rfl fun n _ => ?_
  refine (maximumf_apply _ _ _).trans ?_
  refine congrArg₂ max ?_ ?_
  · refine (addf_apply _ _ _).trans ?_
    refine congrArg₂ (· + ·) ?_ ?_
    · refine (hingeColBroadcast_apply _ _ r n).trans ?_
      refine (subf_apply _ _ _).trans ?_
      refine congrArg₂ (· - ·) rfl ?_
      exact congrFun (shapeCast_self _ _) _
    · exact tileDot_cast_apply x0 x2 _ _ r n
  · exact Ideal.ofBits_zero_f32

/-- The zeroed accumulator is zero everywhere. -/
theorem zero2_apply (a : Fin 8) (l : Fin 128) : (zero2 (F := Ideal)) (ix2 a l) = 0 := by
  unfold zero2 k2_pay1
  refine (congrFun (shapeCast_self _ _) _).trans ?_
  exact Ideal.ofBits_zero_f32

/-- The block written back is the accumulator with a leading unit axis. -/
theorem flush2_apply (s : Vec Ideal S8x128 .f32) (u : Fin 1) (a : Fin 8) (l : Fin 128) :
    flush2 (F := Ideal) s (ix3 u a l) = s (ix2 a l) := by
  unfold flush2 k2_pay3
  exact shapeCast_ab_1ab_apply s _ u a l

variable (V : (c : Dev nD) → (b : Ref sig .tc) → Buf (Elt Ideal) ((c : Thread nD τ).loc b))

/-! ## The blocks the region reads, off the arrays as it finds them -/

/-- The normalised first input, the column of cosines and the normalised third input at the region's entry. -/
abbrev qnArr2 (c : Dev nD) : Cert.Spec.Mat 4096 1024 := V c main_v0_0
abbrev cosCol2 (c : Dev nD) : Fin 4096 → EReal := fun r => (V c main_v0_1 : S4096x1.Idx → EReal) (ix2 r (0 : Fin 1))
abbrev unArr2 (c : Dev nD) : Cert.Spec.Mat 8192 1024 := V c main_v1

/-- The three input blocks at a grid point, at their literal types. -/
abbrev qblk2 (c : Dev nD) (t : Fin cfg2.N) : Vec Ideal S1024x1024 .bf16 := iblk2 V c 0 t
abbrev pblk2 (c : Dev nD) (t : Fin cfg2.N) : Vec Ideal S1024x1 .f32 := iblk2 V c 1 t
abbrev ublk2 (c : Dev nD) (t : Fin cfg2.N) : Vec Ideal S1024x1024 .bf16 := iblk2 V c 2 t

/-- The index maps over the grid: point t = 8 b + j reads block-row b of the first two inputs, block-row j of the
    third, and writes block b of the output. -/
theorem idx_facts2 : ∀ t : Fin cfg2.N,
    win2_0.index t (0 : Fin 2) = t.val / 8 ∧ win2_0.index t (1 : Fin 2) = 0
    ∧ win2_1.index t (0 : Fin 2) = t.val / 8 ∧ win2_1.index t (1 : Fin 2) = 0
    ∧ win2_2.index t (0 : Fin 2) = t.val % 8 ∧ win2_2.index t (1 : Fin 2) = 0
    ∧ win2_3.index t (0 : Fin 3) = t.val / 8 ∧ win2_3.index t (1 : Fin 3) = 0 ∧ win2_3.index t (2 : Fin 3) = 0 :=
  (by decide +kernel : ∀ t : Fin grid2.N, _)

theorem qblk2_apply (c : Dev nD) (t : Fin cfg2.N) (b : Fin 4) (hb : t.val / 8 = b.val) (r d : Fin 1024) :
    qblk2 V c t (ix2 r d) = qnArr2 V c (ix2 (Cert.Spec.row b r) d) := by
  obtain ⟨e0, e1, -⟩ := idx_facts2 t
  show (V c main_v0_0 : S4096x1024.Idx → EReal) (((cfg2.win 0).blk t).view.emb (ix2 r d)) = _
  refine congrArg (V c main_v0_0 : S4096x1024.Idx → EReal) (funext fun a => Fin.ext ?_)
  match a with
  | ⟨0, _⟩ => show win2_0.index t (0 : Fin 2) * 1024 + 1 * r.val = b.val * 1024 + r.val; rw [e0, hb]; omega
  | ⟨1, _⟩ => show win2_0.index t (1 : Fin 2) * 1024 + 1 * d.val = d.val; rw [e1]; omega

theorem pblk2_apply (c : Dev nD) (t : Fin cfg2.N) (b : Fin 4) (hb : t.val / 8 = b.val) (r : Fin 1024) :
    pblk2 V c t (ix2 r (0 : Fin 1)) = cosCol2 V c (Cert.Spec.row b r) := by
  obtain ⟨-, -, e0, e1, -⟩ := idx_facts2 t
  show (V c main_v0_1 : S4096x1.Idx → EReal) (((cfg2.win 1).blk t).view.emb (ix2 r (0 : Fin 1))) = _
  refine congrArg (V c main_v0_1 : S4096x1.Idx → EReal) (funext fun a => Fin.ext ?_)
  match a with
  | ⟨0, _⟩ => show win2_1.index t (0 : Fin 2) * 1024 + 1 * r.val = b.val * 1024 + r.val; rw [e0, hb]; omega
  | ⟨1, _⟩ => show win2_1.index t (1 : Fin 2) * 1 + 1 * 0 = 0; rw [e1]

theorem ublk2_apply (c : Dev nD) (t : Fin cfg2.N) (j : Fin 8) (hj : t.val % 8 = j.val) (n d : Fin 1024) :
    ublk2 V c t (ix2 n d) = unArr2 V c (ix2 (Cert.Spec.col j n) d) := by
  obtain ⟨-, -, -, -, e0, e1, -⟩ := idx_facts2 t
  show (V c main_v1 : S8192x1024.Idx → EReal) (((cfg2.win 2).blk t).view.emb (ix2 n d)) = _
  refine congrArg (V c main_v1 : S8192x1024.Idx → EReal) (funext fun a => Fin.ext ?_)
  match a with
  | ⟨0, _⟩ => show win2_2.index t (0 : Fin 2) * 1024 + 1 * n.val = j.val * 1024 + n.val; rw [e0, hj]; omega
  | ⟨1, _⟩ => show win2_2.index t (1 : Fin 2) * 1024 + 1 * d.val = d.val; rw [e1]; omega

/-! ## The accumulator after each point of a block-row -/

/-- The tile's sum from the blocks at point 8 b + j is the specification's tile (b, j). -/
theorem tile_blocks2 (c : Dev nD) (t : Fin cfg2.N) (b : Fin 4) (j : Fin 8) (hb : t.val / 8 = b.val) (hj : t.val % 8 = j.val) :
    (∑ r : Fin 1024, ∑ n : Fin 1024,
        max ((Cert.Spec.margin - pblk2 V c t (ix2 r (0 : Fin 1)))
          + ∑ d : Fin 1024, qblk2 V c t (ix2 r d) * ublk2 V c t (ix2 n d)) 0)
      = Cert.Spec.tileN (qnArr2 V c) (cosCol2 V c) (unArr2 V c) b j := by
  unfold Cert.Spec.tileN Cert.Spec.hingeN
  refine Finset.sum_congr rfl fun r _ => Finset.sum_congr rfl fun n _ => ?_
  refine congrArg₂ max (congrArg₂ (· + ·) (congrArg₂ (· - ·) rfl (pblk2_apply V c t b hb r))
    (Finset.sum_congr rfl fun d _ => congrArg₂ (· * ·) (qblk2_apply V c t b hb r d) (ublk2_apply V c t j hj n d))) rfl

/-- One point's update, over the region's blocks. -/
theorem acc2_blocks_apply (c : Dev nD) (t : Fin cfg2.N) (b : Fin 4) (j : Fin 8) (hb : t.val / 8 = b.val) (hj : t.val % 8 = j.val)
    (s : Vec Ideal S8x128 .f32) (a : Fin 8) (l : Fin 128) :
    acc2 (F := Ideal) (iblk2 V c 0 t) (iblk2 V c 1 t) (iblk2 V c 2 t) s (ix2 a l)
      = s (ix2 a l) + Cert.Spec.tileN (qnArr2 V c) (cosCol2 V c) (unArr2 V c) b j :=
  (acc2_apply (qblk2 V c t) (ublk2 V c t) (pblk2 V c t) s a l).trans
    (congrArg (s (ix2 a l) + ·) (tile_blocks2 V c t b j hb hj))

/-- Tile j' of block-row b; zero past the eighth. -/
def tileAt2 (c : Dev nD) (b : Fin 4) (j' : ℕ) : EReal :=
  if h : j' < 8 then Cert.Spec.tileN (qnArr2 V c) (cosCol2 V c) (unArr2 V c) b ⟨j', h⟩ else 0

/-- After point 8 b + j every entry of the accumulator is the sum of the tiles (b, 0) … (b, j). -/
theorem sAt2_apply (c : Dev nD) (b : Fin 4) : ∀ (j : ℕ) (t : Fin cfg2.N), t.val = 8 * b.val + j → j < 8 → ∀ (a : Fin 8) (l : Fin 128),
    (sAt2 V c t.val t.isLt : S8x128.Idx → EReal) (ix2 a l) = ∑ j' ∈ Finset.range (j + 1), tileAt2 V c b j'
  | 0, t, ht, hj, a, l => by
    have h0 : t.val % 8 = 0 := by omega
    rw [sAt2_reset V c t h0]
    refine (acc2_blocks_apply V c t b ⟨0, by omega⟩ (by omega) h0 _ a l).trans ?_
    rw [zero2_apply, zero_add, Finset.sum_range_one]
    unfold tileAt2
    rw [dif_pos (by omega)]
  | j + 1, t, ht, hj, a, l => by
    have hN : cfg2.N = 32 := N_2
    have h0 : ¬t.val % 8 = 0 := by omega
    rw [sAt2_step V c t h0]
    refine (acc2_blocks_apply V c t b ⟨j + 1, hj⟩ (by omega) (by show t.val % 8 = j + 1; omega) _ a l).trans ?_
    have ih := sAt2_apply c b j ⟨t.val - 1, by have := t.isLt; omega⟩ (by show t.val - 1 = _; omega) (by omega) a l
    rw [Finset.sum_range_succ _ (j + 1)]
    refine congrArg₂ (· + ·) ih ?_
    unfold tileAt2
    rw [dif_pos hj]

/-- All eight tiles of a block-row. -/
theorem sum_tileAt2 (c : Dev nD) (b : Fin 4) :
    ∑ j' ∈ Finset.range 8, tileAt2 V c b j' = ∑ j : Fin 8, Cert.Spec.tileN (qnArr2 V c) (cosCol2 V c) (unArr2 V c) b j := by
  rw [← Fin.sum_univ_eq_sum_range (fun j' => tileAt2 V c b j') 8]
  refine Finset.sum_congr rfl fun j _ => ?_
  unfold tileAt2
  rw [dif_pos j.isLt]

/-! ## From the written-back blocks to the output array -/

/-- What the output array ends holding: at every entry of row-tile b, the sum of the row-tile's eight tiles. -/
def out2 (c : Dev nD) : S4x8x128.Idx → EReal :=
  fun i => ∑ j : Fin 8, Cert.Spec.tileN (qnArr2 V c) (cosCol2 V c) (unArr2 V c) ⟨(i 0).val, (i 0).isLt⟩ j

theorem out2_apply (c : Dev nD) (i : S4x8x128.Idx) (b : Fin 4) (hb : (i 0).val = b.val) :
    out2 V c i = ∑ j : Fin 8, Cert.Spec.tileN (qnArr2 V c) (cosCol2 V c) (unArr2 V c) b j := by
  unfold out2
  have e : (⟨(i 0).val, (i 0).isLt⟩ : Fin 4) = b := Fin.ext hb
  rw [e]

/-- The block written back at a point with second coordinate 7 is the point's block of that array. -/
theorem flushed2_3_eq (c : Dev nD) (t : Fin cfg2.N) (hf : (cfg2.win 3).flush t = true) :
    (dat2 (F := Ideal) V c).flushed 3 t = ((cfg2.win 3).blk t).view.read (Elt Ideal) (out2 V c) := by
  have h7 : t.val % 8 = 7 := (flush2_3 t).mp hf
  have hN : cfg2.N = 32 := N_2
  have hlt := t.isLt
  obtain ⟨-, -, -, -, -, -, e0, -, -⟩ := idx_facts2 t
  show (cfg2.win 3).cut (grid2.coords t) ((dat2 (F := Ideal) V c).after 3 t) = _
  rw [after2_3]
  funext y
  have hy0 : (y 0).val < 1 := (y 0).isLt
  have ey : (cfg2.win 3).xinj (grid2.coords t) y = ix3 (⟨(y 0).val, hy0⟩ : Fin 1) (⟨(y 1).val, (y 1).isLt⟩ : Fin 8) (⟨(y 2).val, (y 2).isLt⟩ : Fin 128) :=
    funext fun d => by
      match d with
      | ⟨0, _⟩ => rfl
      | ⟨1, _⟩ => rfl
      | ⟨2, _⟩ => rfl
  show flush2 (F := Ideal) (sAt2 V c t.val t.isLt) ((cfg2.win 3).xinj (grid2.coords t) y) = out2 V c (((cfg2.win 3).blk t).view.emb y)
  rw [ey, flush2_apply]
  refine (sAt2_apply V c ⟨t.val / 8, by omega⟩ 7 t (by show t.val = 8 * (t.val / 8) + 7; omega) (by omega) _ _).trans ?_
  rw [sum_tileAt2]
  refine (out2_apply V c _ ⟨t.val / 8, by omega⟩ ?_).symm
  show win2_3.index t (0 : Fin 3) * 1 + 1 * (y 0).val = t.val / 8
  rw [e0]; omega

/-- An entry of the output array is in a point's block iff each coordinate is in the block's range. -/
theorem mem_blk2_3 (t : Fin cfg2.N) (i : S4x8x128.Idx) :
    i ∈ ((cfg2.win 3).blk t).view.set ↔ ∀ a : Fin 3, win2_3.index t a * S1x8x128.size a ≤ (i a).val ∧ (i a).val < win2_3.index t a * S1x8x128.size a + S1x8x128.size a := by
  show i ∈ ((View.whole main_v2).slice (win2_3.rect t)).set ↔ _
  rw [View.set_slice_whole, Rect.mem_set_unit]
  exact Iff.rfl

/-- Row-tile b of the output is the block written back at point 8 b + 7. -/
theorem cover2_3 (i : S4x8x128.Idx) : ∃ t : Fin cfg2.N, (cfg2.win 3).flush t = true ∧ i ∈ ((cfg2.win 3).blk t).view.set := by
  have hN : cfg2.N = 32 := N_2
  have hi0 : (i 0).val < 4 := (i 0).isLt
  have hi1 : (i 1).val < 8 := (i 1).isLt
  have hi2 : (i 2).val < 128 := (i 2).isLt
  obtain ⟨tt, htt⟩ : ∃ tt : Fin cfg2.N, tt.val = 8 * (i 0).val + 7 := ⟨⟨8 * (i 0).val + 7, by omega⟩, rfl⟩
  refine ⟨tt, (flush2_3 tt).mpr (by omega), ?_⟩
  obtain ⟨-, -, -, -, -, -, e0, e1, e2⟩ := idx_facts2 tt
  rw [mem_blk2_3]
  intro a
  match a with
  | ⟨0, _⟩ => show win2_3.index tt (0 : Fin 3) * 1 ≤ (i 0).val ∧ (i 0).val < win2_3.index tt (0 : Fin 3) * 1 + 1; rw [e0]; omega
  | ⟨1, _⟩ => show win2_3.index tt (1 : Fin 3) * 8 ≤ (i 1).val ∧ (i 1).val < win2_3.index tt (1 : Fin 3) * 8 + 8; rw [e1]; omega
  | ⟨2, _⟩ => show win2_3.index tt (2 : Fin 3) * 128 ≤ (i 2).val ∧ (i 2).val < win2_3.index tt (2 : Fin 3) * 128 + 128; rw [e2]; omega

/-- Entry (b, s, l) of the third region's output array after the region. -/
theorem final2_3 (c : Dev nD) (b : Fin 4) (s : Fin 8) (l : Fin 128) :
    ((dat2 (F := Ideal) V c).arrAt 3 cfg2.N : S4x8x128.Idx → EReal) (ix3 b s l)
      = ∑ j : Fin 8, Cert.Spec.tileN (V c main_v0_0 : Cert.Spec.Mat 4096 1024)
          (fun r => (V c main_v0_1 : S4096x1.Idx → EReal) (ix2 r (0 : Fin 1))) (V c main_v1 : Cert.Spec.Mat 8192 1024) b j := by
  have h := (dat2 (F := Ideal) V c).arrAt_eq_of_cover 3 (out2 V c) (flushed2_3_eq V c) cover2_3
  refine (congrFun h (ix3 b s l)).trans ?_
  exact out2_apply V c (ix3 b s l) b rfl

end Cert.KernelIdeal.Frm

end
-- ==== Proof.KI.KVal.lean ====
/-
  The kernel program's one result at the exact instance, as a function of the three arguments: the four host
  operations after the last region pick entry (b, 0, 0) of each of the four row-tiles of its output and add them to
  zero; each such entry is the sum over the eight column-tiles of the tile's sum of hinges over the normalised
  rows and cosines the first two regions left; so the result is the sum of all hinges grouped by tiles.
-/
import proofs.«175147_j18545668784711_1_alg».proof.Proof.KI.Run
import proofs.«175147_j18545668784711_1_alg».proof.Proof.KI.Val01
import proofs.«175147_j18545668784711_1_alg».proof.Proof.KI.Val2
import proofs.«175147_j18545668784711_1_alg».proof.Proof.Spec
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The host operations after the last region -/

/-- The four host operations as one function of the last region's output array. -/
def tail4 (x : S4x8x128.Idx → EReal) : S_.Idx → EReal :=
  Host.reduceAdd (F := Ideal)
      (shapeCast S4 (extractStridedSlice S4x1x1 ![0, 0, 0] x slices_S4x8x128_S4x1x1_0_0_0) shapeCasts_S4x1x1_S4 : FVec Ideal S4 .f32)
      (constant (F := Ideal) S_ FTy.f32 0#32) reducesTo_S4_S_d0 h_S_

open Idealize.ShloMosaic.StableHlo in
theorem W4_v5_tail (c : Dev nD) : W4 m ρ c (Proc.devRef .tc main_v5) = tail4 (W3 m ρ c (Proc.devRef .tc main_v2)) := by
  show StableHlo.after hostOps3 (W3 m ρ c) (Proc.devRef .tc main_v5) = _
  after_results
  rfl

/-- A sum over a rank-1 index set is the sum over its one coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-- The reshaped slice at row-tile `b` is the array's entry (b, 0, 0). -/
theorem slice_apply (x : S4x8x128.Idx → EReal) (b : Fin 4) :
    shapeCast S4 (extractStridedSlice S4x1x1 ![0, 0, 0] x slices_S4x8x128_S4x1x1_0_0_0) shapeCasts_S4x1x1_S4 (ix1 b)
      = x (ix3 b (0 : Fin 8) (0 : Fin 128)) := by
  refine (shapeCast_apply _ shapeCasts_S4x1x1_S4 (ix1 b) (ix3 b (0 : Fin 1) (0 : Fin 1)) (by
    rw [Shape.rowMajor_val_three, Shape.rowMajor_val_one]
    show (b.val * 1 + 0) * 1 + 0 = b.val
    omega)).trans ?_
  exact extractStridedSlice_apply _ x slices_S4x8x128_S4x1x1_0_0_0 (ix3 b (0 : Fin 1) (0 : Fin 1)) (ix3 b (0 : Fin 8) (0 : Fin 128))
    (fun a => match a with | ⟨0, _⟩ => by show b.val = 0 + b.val; omega | ⟨1, _⟩ => rfl | ⟨2, _⟩ => rfl)

/-- The host operations add the four row-tiles' entries (b, 0, 0). -/
theorem tail4_apply (x : S4x8x128.Idx → EReal) (j : S_.Idx) :
    tail4 x j = ∑ b : Fin 4, x (ix3 b (0 : Fin 8) (0 : Fin 128)) := by
  unfold tail4
  rw [hostReduceAdd_apply, Ideal.hostReduceAdd_total _ (fun b => b.elim0)]
  rw [show constant (F := Ideal) S_ FTy.f32 (0#32) (Shape.Idx.first h_S_) = 0 from Ideal.ofBits_zero_f32, zero_add, sum_idx1]
  exact Finset.sum_congr rfl fun b _ => slice_apply x b

/-! ## What the last region finds in its three input arrays -/

/-- The first argument as launched. -/
abbrev qA (c : Dev nD) : Cert.Spec.Mat 4096 1024 := m ((c : Thread nD τ).loc main_arg0)
/-- The second argument as launched. -/
abbrev kA (c : Dev nD) : Cert.Spec.Mat 4096 1024 := m ((c : Thread nD τ).loc main_arg1)
/-- The third argument as launched. -/
abbrev uA (c : Dev nD) : Cert.Spec.Mat 8192 1024 := m ((c : Thread nD τ).loc main_arg2)

/-- The last region finds the first region's first output: the first argument's rows, normalised. -/
theorem Vc_v0_0 (c : Dev nD) :
    (Vc m ρ c main_v0_0 : Cert.Spec.Mat 4096 1024) = fun i => Cert.Spec.unitRow (qA m c) (i 0) (i 1) := by
  funext i
  obtain ⟨r, d, rfl⟩ : ∃ (r : Fin 4096) (d : Fin 1024), i = ix2 r d := ⟨i 0, i 1, eq_ix2 i⟩
  show W2 m ρ c (Proc.devRef .tc main_v0_0) (ix2 r d) = _
  rw [W2_of_ne m ρ c main_v0_0 (by decide)]
  exact (congrFun (W1_arr m ρ c 2) (ix2 r d)).trans (final0_2 (Va m ρ) c r d)

/-- The last region finds the first region's second output: the cosines of the first two arguments' rows. -/
theorem Vc_v0_1 (c : Dev nD) :
    (fun r : Fin 4096 => (Vc m ρ c main_v0_1 : S4096x1.Idx → EReal) (ix2 r (0 : Fin 1))) = Cert.Spec.pos (qA m c) (kA m c) := by
  funext r
  show W2 m ρ c (Proc.devRef .tc main_v0_1) (ix2 r (0 : Fin 1)) = _
  rw [W2_of_ne m ρ c main_v0_1 (by decide)]
  exact (congrFun (W1_arr m ρ c 3) (ix2 r (0 : Fin 1))).trans (final0_3 (Va m ρ) c r)

/-- The last region finds the second region's output: the third argument's rows, normalised. -/
theorem Vc_v1 (c : Dev nD) :
    (Vc m ρ c main_v1 : Cert.Spec.Mat 8192 1024) = fun i => Cert.Spec.unitRow (uA m c) (i 0) (i 1) := by
  funext i
  obtain ⟨n, d, rfl⟩ : ∃ (n : Fin 8192) (d : Fin 1024), i = ix2 n d := ⟨i 0, i 1, eq_ix2 i⟩
  show W2 m ρ c (Proc.devRef .tc main_v1) (ix2 n d) = _
  refine (congrFun (W2_arr m ρ c 1) (ix2 n d)).trans ((final1_1 (Vb m ρ) c n d).trans ?_)
  rw [show (Vb m ρ c main_arg2 : Cert.Spec.Mat 8192 1024) = uA m c from W1_of_ne m ρ c main_arg2 (by decide)]
  rfl

/-! ## The result -/

/-- The program's result buffer at the end holds the sum of all hinges, grouped by tiles. -/
theorem kernel_value (c : Dev nD) :
    (W4 m ρ c (Proc.devRef .tc main_v5) : S_.Idx → EReal) = fun _ => Cert.Spec.tiled (qA m c) (kA m c) (uA m c) := by
  rw [W4_v5_tail]
  funext j
  rw [tail4_apply]
  unfold Cert.Spec.tiled
  refine Finset.sum_congr rfl fun b _ => ?_
  have e1 : (W3 m ρ c (Proc.devRef .tc main_v2) : S4x8x128.Idx → EReal) (ix3 b (0 : Fin 8) (0 : Fin 128))
      = ((dat2 (F := Ideal) (Vc m ρ) c).arrAt 3 cfg2.N : S4x8x128.Idx → EReal) (ix3 b (0 : Fin 8) (0 : Fin 128)) :=
    congrFun (W3_arr m ρ c 3) _
  rw [e1, final2_3 (Vc m ρ) c b 0 0]
  refine Finset.sum_congr rfl fun j _ => ?_
  rw [Vc_v0_0, Vc_v0_1, Vc_v1]
  exact Cert.Spec.tileN_unit _ _ _ b j

end Cert.KernelIdeal.Frm

end
-- ==== Proof.KI.RefVal.lean ====
/-
  The reference program's run, read at the exact instance: its one result is the sum over all pairs of
  the hinge of margin − cos(q_r, k_r) + cos(q_r, u_n), each row divided by its clamped Euclidean norm.
  The generated stages are read one index at a time: a row's clamped norm, an entry of a unit row, the two
  cosines, one pair's hinge; the last stage sums the hinges over the rank-2 index set, which is the double
  sum over the two coordinates.
-/
import proofs.«175147_j18545668784711_1_alg».proof.Defs
import proofs.«175147_j18545668784711_1_alg».proof.Proof.Gen.ReferenceIdeal.Read
import proofs.«175147_j18545668784711_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.ReferenceIdeal.Read

/-! ## Where each stage reads its operand -/

/-- The first input's sum of squares, read for row `r`, runs along that row. -/
theorem idx_sq0 (r : Fin 4096) (c : Fin 1) (d : Fin 1024) :
    idx_main_call0_v1 (idx_main_call0_v2 (ix2 r c)) d = ix2 r d :=
  funext fun a => Fin.ext (by match a with | ⟨0, _⟩ => rfl | ⟨1, _⟩ => rfl)
/-- The second input's sum of squares, read for row `r`, runs along that row. -/
theorem idx_sq1 (r : Fin 4096) (c : Fin 1) (d : Fin 1024) :
    idx_main_call1_v1 (idx_main_call1_v2 (ix2 r c)) d = ix2 r d :=
  funext fun a => Fin.ext (by match a with | ⟨0, _⟩ => rfl | ⟨1, _⟩ => rfl)
/-- The third input's sum of squares, read for row `n`, runs along that row. -/
theorem idx_sq2 (n : Fin 8192) (c : Fin 1) (d : Fin 1024) :
    idx_main_call2_v1 (idx_main_call2_v2 (ix2 n c)) d = ix2 n d :=
  funext fun a => Fin.ext (by match a with | ⟨0, _⟩ => rfl | ⟨1, _⟩ => rfl)

/-- Every entry of row `r` of the first input is divided by that row's one norm. -/
theorem idx_bc0 (r : Fin 4096) (d : Fin 1024) : idx_main_v3 (ix2 r d) = ix2 r (0 : Fin 1) :=
  funext fun a => Fin.ext (by match a with | ⟨0, _⟩ => rfl | ⟨1, _⟩ => rfl)
/-- Every entry of row `r` of the second input is divided by that row's one norm. -/
theorem idx_bc1 (r : Fin 4096) (d : Fin 1024) : idx_main_v8 (ix2 r d) = ix2 r (0 : Fin 1) :=
  funext fun a => Fin.ext (by match a with | ⟨0, _⟩ => rfl | ⟨1, _⟩ => rfl)
/-- Every entry of row `n` of the third input is divided by that row's one norm. -/
theorem idx_bc2 (n : Fin 8192) (d : Fin 1024) : idx_main_v13 (ix2 n d) = ix2 n (0 : Fin 1) :=
  funext fun a => Fin.ext (by match a with | ⟨0, _⟩ => rfl | ⟨1, _⟩ => rfl)

/-- The first cosine of row `r` sums along that row. -/
theorem idx_pos (r : Fin 4096) (d : Fin 1024) : idx_main_v16 (ix1 r) d = ix2 r d :=
  funext fun a => Fin.ext (by match a with | ⟨0, _⟩ => rfl | ⟨1, _⟩ => rfl)
/-- The pair (r, n) reads the first cosine of row `r` … -/
theorem idx_mp (r : Fin 4096) (n : Fin 8192) : idx_main_v21 (ix2 r n) = ix2 r (0 : Fin 1) :=
  funext fun a => Fin.ext (by match a with | ⟨0, _⟩ => rfl | ⟨1, _⟩ => rfl)
/-- … which is stored once per row. -/
theorem idx_pc (r : Fin 4096) (c : Fin 1) : idx_main_v18 (ix2 r c) = ix1 r :=
  funext fun a => Fin.ext (by match a with | ⟨0, _⟩ => rfl)
/-- The pair (r, n)'s contraction reads row `r` of the left operand … -/
theorem idx_l (r : Fin 4096) (n : Fin 8192) (d : Fin 1024) : lidx_main_v17 (ix2 r n) d = ix2 r d :=
  funext fun a => Fin.ext (by match a with | ⟨0, _⟩ => rfl | ⟨1, _⟩ => rfl)
/-- … and row `n` of the right operand. -/
theorem idx_r (r : Fin 4096) (n : Fin 8192) (d : Fin 1024) : ridx_main_v17 (ix2 r n) d = ix2 n d :=
  funext fun a => Fin.ext (by match a with | ⟨0, _⟩ => rfl | ⟨1, _⟩ => rfl)

/-! ## A row's clamped norm -/

/-- Row `r` of the first input: the square root of the row's sum of squares, clamped from below. -/
theorem norm0 (q : FVec Ideal S4096x1024 .f32) (r : Fin 4096) (c : Fin 1) :
    val_main_v2 (F := Ideal) q (ix2 r c) = Cert.Spec.rowNorm q r := by
  rw [val_main_v2_apply, val_main_v0_apply, val_main_call0_v2_apply, val_main_call0_v1_apply,
    val_main_v1_apply, val_main_cst_apply, val_main_call0_cst_apply]
  simp only [val_main_call0_v0_apply, idx_sq0, Ideal.maximumf_def, Ideal.hostUnary_sqrt_def, Ideal.ofBits_def,
    Ideal.ofBits_zero_f32, Ideal.mulf_def, zero_add]
  rfl

/-- Row `r` of the second input: the square root of the row's sum of squares, clamped from below. -/
theorem norm1 (k : FVec Ideal S4096x1024 .f32) (r : Fin 4096) (c : Fin 1) :
    val_main_v7 (F := Ideal) k (ix2 r c) = Cert.Spec.rowNorm k r := by
  rw [val_main_v7_apply, val_main_v5_apply, val_main_call1_v2_apply, val_main_call1_v1_apply,
    val_main_v6_apply, val_main_cst_0_apply, val_main_call1_cst_apply]
  simp only [val_main_call1_v0_apply, idx_sq1, Ideal.maximumf_def, Ideal.hostUnary_sqrt_def, Ideal.ofBits_def,
    Ideal.ofBits_zero_f32, Ideal.mulf_def, zero_add]
  rfl

/-- Row `n` of the third input: the square root of the row's sum of squares, clamped from below. -/
theorem norm2 (u : FVec Ideal S8192x1024 .f32) (n : Fin 8192) (c : Fin 1) :
    val_main_v12 (F := Ideal) u (ix2 n c) = Cert.Spec.rowNorm u n := by
  rw [val_main_v12_apply, val_main_v10_apply, val_main_call2_v2_apply, val_main_call2_v1_apply,
    val_main_v11_apply, val_main_cst_1_apply, val_main_call2_cst_apply]
  simp only [val_main_call2_v0_apply, idx_sq2, Ideal.maximumf_def, Ideal.hostUnary_sqrt_def, Ideal.ofBits_def,
    Ideal.ofBits_zero_f32, Ideal.mulf_def, zero_add]
  rfl

/-! ## An entry of a unit row -/

/-- Entry `d` of row `r` of the first input, divided by the row's clamped norm. -/
theorem unit0 (q : FVec Ideal S4096x1024 .f32) (r : Fin 4096) (d : Fin 1024) :
    val_main_v4 (F := Ideal) q (ix2 r d) = Cert.Spec.unitRow q r d := by
  rw [val_main_v4_apply, val_main_v3_apply, idx_bc0, norm0, Ideal.hostDivf_def]
  rfl

/-- Entry `d` of row `r` of the second input, divided by the row's clamped norm. -/
theorem unit1 (k : FVec Ideal S4096x1024 .f32) (r : Fin 4096) (d : Fin 1024) :
    val_main_v9 (F := Ideal) k (ix2 r d) = Cert.Spec.unitRow k r d := by
  rw [val_main_v9_apply, val_main_v8_apply, idx_bc1, norm1, Ideal.hostDivf_def]
  rfl

/-- Entry `d` of row `n` of the third input, divided by the row's clamped norm. -/
theorem unit2 (u : FVec Ideal S8192x1024 .f32) (n : Fin 8192) (d : Fin 1024) :
    val_main_v14 (F := Ideal) u (ix2 n d) = Cert.Spec.unitRow u n d := by
  rw [val_main_v14_apply, val_main_v13_apply, idx_bc2, norm2, Ideal.hostDivf_def]
  rfl

/-! ## The two cosines -/

/-- The cosine of rows `r` of the first two inputs: the sum along the row of the unit rows' products. -/
theorem pos_at (q k : FVec Ideal S4096x1024 .f32) (r : Fin 4096) :
    val_main_v16 (F := Ideal) q k (ix1 r) = Cert.Spec.pos q k r := by
  rw [val_main_v16_apply, val_main_cst_2_apply]
  simp only [val_main_v15_apply, idx_pos, unit0, unit1, Ideal.ofBits_def, Ideal.ofBits_zero_f32, Ideal.mulf_def,
    zero_add]
  rfl

/-- The cosine of row `r` of the first input and row `n` of the third: the contraction of the two unit rows. -/
theorem neg_at (q : FVec Ideal S4096x1024 .f32) (u : FVec Ideal S8192x1024 .f32) (r : Fin 4096) (n : Fin 8192) :
    val_main_v17 (F := Ideal) q u (ix2 r n) = Cert.Spec.neg q u r n := by
  rw [val_main_v17_apply]
  simp only [idx_l, idx_r, unit0, unit2]
  rfl

/-! ## One pair's hinge -/

/-- The pair (r, n): the margin less the first cosine plus the second, against zero. -/
theorem hinge_at (q k : FVec Ideal S4096x1024 .f32) (u : FVec Ideal S8192x1024 .f32) (r : Fin 4096) (n : Fin 8192) :
    val_main_v23 (F := Ideal) q k u (ix2 r n) = Cert.Spec.hinge q k u r n := by
  rw [val_main_v23_apply, val_main_v22_apply, val_main_v21_apply, idx_mp, val_main_v20_apply, val_main_v19_apply,
    val_main_cst_3_apply, val_main_v18_apply, idx_pc, pos_at, neg_at, val_main_call3_v0_apply,
    val_main_call3_cst_apply]
  simp only [Ideal.maximumf_def, Ideal.addf_def, Ideal.subf_def, Ideal.ofBits_def, Ideal.ofBits_zero_f32]
  rfl

/-! ## The sum over all pairs -/

/-- The last stage sums the hinges over every pair: the sum over the rank-2 index set is the double sum. -/
theorem total_eq (q k : FVec Ideal S4096x1024 .f32) (u : FVec Ideal S8192x1024 .f32) :
    val_main_v24 (F := Ideal) q k u = fun _ => Cert.Spec.total q k u := by
  funext i
  rw [val_main_v24_apply, val_main_cst_4_apply, sum_idx2]
  simp only [hinge_at, Ideal.ofBits_def, Ideal.ofBits_zero_f32, zero_add]
  rfl

/-- Every weakly fair execution of the reference ends with its result at the sum over all pairs, the arguments unchanged. -/
theorem run_total (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v24) : S_.Idx → EReal)
          = (fun _ => Cert.Spec.total (m ((c.tc : Thread nD τ).loc main_arg0) : Cert.Spec.Mat 4096 1024)
              (m ((c.tc : Thread nD τ).loc main_arg1) : Cert.Spec.Mat 4096 1024) (m ((c.tc : Thread nD τ).loc main_arg2) : Cert.Spec.Mat 8192 1024))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v24_eq (F := Ideal) _ _ _).trans (total_eq _ _ _)), (h c).2⟩)
    (Cert.ReferenceIdeal.Value.run (F := Ideal) m ρ)

end Cert.ReferenceIdeal.RefValue

end
-- ==== Proof.lean ====
/-
  Pairwise cosine-similarity hinge loss, tiled. Every row of the three inputs is divided by its Euclidean norm
  clamped from below; for every pair (row r of the first input, row n of the third) the hinge of
  margin − cos(q_r, k_r) + cos(q_r, u_n) against zero is taken, and the result is the sum of all hinges.
  The reference computes this with whole-array operations. The kernel program does it in three regions: the
  first normalises the first input block by block and forms the cosines with the second input; the second
  normalises the third input; the third runs over a 4 × 8 grid of tiles of 1024 × 1024 pairs, forms the tile's
  matrix of inner products, adds margin minus the cosines, clamps at zero, sums the tile, and accumulates the
  eight tiles of a row-tile in a scratch accumulator that is zeroed at the first and copied out at the last; four
  host operations then add the four row-tiles' sums.
  Over the extended reals every float operation is exact and a change of format is the identity, so the kernel's
  result is the sum of all hinges grouped by tiles and the reference's the same sum ungrouped; they agree because
  addition of extended reals is commutative and associative. The precondition is not used. Each kernel program's
  frame — it terminates, faults nowhere and leaves its arguments unchanged — is its run with every buffer's final
  contents named, read at the arguments; the reference's frame is its run with the result dropped. The idealised
  kernel is the kernel's own text read at the exact instance: there is nothing to preserve.
-/
import proofs.«175147_j18545668784711_1_alg».proof.Defs
import proofs.«175147_j18545668784711_1_alg».proof.Proof.Gen.Kernel
import proofs.«175147_j18545668784711_1_alg».proof.Proof.Gen.KernelIdeal
import proofs.«175147_j18545668784711_1_alg».proof.Proof.Gen.ReferenceIdeal
import proofs.«175147_j18545668784711_1_alg».proof.Proof.Gen.Pre_finite_inputs
import proofs.«175147_j18545668784711_1_alg».proof.Proof.Gen.ReferenceIdeal.Run
import proofs.«175147_j18545668784711_1_alg».proof.Proof.K.Run
import proofs.«175147_j18545668784711_1_alg».proof.Proof.KI.Run
import proofs.«175147_j18545668784711_1_alg».proof.Proof.KI.KVal
import proofs.«175147_j18545668784711_1_alg».proof.Proof.KI.RefVal
import proofs.«175147_j18545668784711_1_alg».proof.Proof.Spec
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_kernel : Cert.frame_Kernel := fun m ρ _ => Cert.Kernel.Frm.frame (F := Bits) m ρ

/-- So does the same program read at the exact instance. -/
theorem frame_kernelIdeal : Cert.frame_KernelIdeal := fun m ρ _ => Cert.KernelIdeal.Frm.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end with the sum of all hinges: the kernel's grouped by tiles, the reference's ungrouped. -/
theorem algebraic : Cert.algebraic_KernelIdeal_ReferenceIdeal := by
  intro m ρ m' ρ' _ hagree
  refine ⟨fun c => (fun _ => Cert.Spec.tiled (Cert.KernelIdeal.Frm.qA m c) (Cert.KernelIdeal.Frm.kA m c) (Cert.KernelIdeal.Frm.uA m c)), ?_, ?_⟩
  · refine (θ_run Cert.KernelIdeal.defs _ _).mono (fun r h c => ?_) (Cert.KernelIdeal.Frm.run_all (F := Ideal) m ρ)
    exact ⟨(h c _ (Cert.KernelIdeal.Frm.mem_uc Cert.KernelIdeal.main_v5 (by decide))).trans (Cert.KernelIdeal.Frm.kernel_value m ρ c),
      (h c _ (Cert.KernelIdeal.Frm.mem_uc Cert.KernelIdeal.main_arg0 (by decide))).trans (Cert.KernelIdeal.Frm.W4_main_arg0 m ρ c),
      (h c _ (Cert.KernelIdeal.Frm.mem_uc Cert.KernelIdeal.main_arg1 (by decide))).trans (Cert.KernelIdeal.Frm.W4_main_arg1 m ρ c),
      (h c _ (Cert.KernelIdeal.Frm.mem_uc Cert.KernelIdeal.main_arg2 (by decide))).trans (Cert.KernelIdeal.Frm.W4_main_arg2 m ρ c)⟩
  · refine (θ_run Cert.ReferenceIdeal.defs _ _).mono (fun r h c => ⟨(h c).1.trans ?_, (h c).2⟩)
      (Cert.ReferenceIdeal.RefValue.run_total m' ρ')
    rw [(hagree c).1, (hagree c).2.1, (hagree c).2.2]
    funext _
    exact (Cert.Spec.tiled_eq_total _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
